-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel

variable [Facts]

def fn {F : FTy → Type} [FloatOps F] (main_arg0 : FVec F S4x4096x128 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  main_v3
-- ==== Kernel.lean ====
abbrev S4x4096x128 : Shape := ⟨3, ![4, 4096, 128]⟩
abbrev S1x4096x128 : Shape := ⟨3, ![1, 4096, 128]⟩
abbrev S1x1024x128 : Shape := ⟨3, ![1, 1024, 128]⟩
abbrev S1024x1 : Shape := ⟨2, ![1024, 1]⟩
abbrev S1024x128 : Shape := ⟨2, ![1024, 128]⟩
abbrev S1x512x128 : Shape := ⟨3, ![1, 512, 128]⟩
abbrev S512x128 : Shape := ⟨2, ![512, 128]⟩
abbrev S1024x512 : Shape := ⟨2, ![1024, 512]⟩
abbrev S1024 : Shape := ⟨1, ![1024]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x128, .f32⟩
  | .hbm, ⟨1, _⟩ => ⟨S4x4096x128, .bf16⟩
  | .hbm, ⟨2, _⟩ => ⟨S4x4096x128, .f32⟩
  | .local _ .vmem, ⟨0, _⟩ => ⟨S1x4096x128, .bf16⟩
  | .local _ .vmem, ⟨1, _⟩ => ⟨S1x4096x128, .bf16⟩
  | .local _ .vmem, ⟨2, _⟩ => ⟨S1x1024x128, .f32⟩
  | .local _ .vmem, ⟨3, _⟩ => ⟨S1x1024x128, .f32⟩
  | .local _ .vmem, ⟨4, _⟩ => ⟨S1024x1, .f32⟩
  | .local _ .vmem, ⟨5, _⟩ => ⟨S1024x1, .f32⟩
  | .local _ .vmem, ⟨6, _⟩ => ⟨S1024x128, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v12 : BitVec 32 := Scalar.muli arg1 c1024_i32
  v12
def k0_off1 (i : grid0.Coords) : Fin 3 → Nat :=
  let c0_7 : Index := 0#32
  let arg1 : BitVec 32 := BitVec.ofNat 32 (i 1).val
  let c1024_i32 : BitVec 32 := 1024#32
  let v12 : BitVec 32 := Scalar.muli arg1 c1024_i32
  let v13 : BitVec 32 := v12
  let v14 : Index := Scalar.indexCast v13
  let c0_8 : Index := 0#32
  ![0, v14.toNat, 0]
def k0_mult2 : BitVec 32 :=
  let c0_i32_10 : BitVec 32 := 0#32
  let c0_i32 : BitVec 32 := 0#32
  let c1_i32 : BitVec 32 := 1#32
  let v21 : BitVec 32 := Scalar.muli c0_i32 c1_i32
  let v22 : BitVec 32 := Scalar.addi c0_i32_10 v21
  let c512_i32 : BitVec 32 := 512#32
  let v23 : BitVec 32 := Scalar.muli v22 c512_i32
  v23
def k0_off2 (c0_i32 : BitVec 32) : Fin 3 → Nat :=
  let c0_11 : Index := 0#32
  let c0_i32_10 : BitVec 32 := 0#32
  let c1_i32 : BitVec 32 := 1#32
  let v21 : BitVec 32 := Scalar.muli c0_i32 c1_i32
  let v22 : BitVec 32 := Scalar.addi c0_i32_10 v21
  let c512_i32 : BitVec 32 := 512#32
  let v23 : BitVec 32 := Scalar.muli v22 c512_i32
  let v24 : BitVec 32 := v23
  let v25 : Index := Scalar.indexCast v24
  let c0_12 : Index := 0#32
  ![0, v25.toNat, 0]
def k0_mult3 : BitVec 32 :=
  let c0_i32_31 : BitVec 32 := 0#32
  let c1_i32_29 : BitVec 32 := 1#32
  let c1_i32_30 : BitVec 32 := 1#32
  let v58 : BitVec 32 := Scalar.muli c1_i32_29 c1_i32_30
  let v59 : BitVec 32 := Scalar.addi c0_i32_31 v58
  let c512_i32_32 : BitVec 32 := 512#32
  let v60 : BitVec 32 := Scalar.muli v59 c512_i32_32
  v60
def k0_mult4 : BitVec 32 :=
  let c0_i32_52 : BitVec 32 := 0#32
  let c2_i32 : BitVec 32 := 2#32
  let c1_i32_51 : BitVec 32 := 1#32
  let v95 : BitVec 32 := Scalar.muli c2_i32 c1_i32_51
  let v96 : BitVec 32 := Scalar.addi c0_i32_52 v95
  let c512_i32_53 : BitVec 32 := 512#32
  let v97 : BitVec 32 := Scalar.muli v96 c512_i32_53
  v97
def k0_mult5 : BitVec 32 :=
  let c0_i32_73 : BitVec 32 := 0#32
  let c3_i32 : BitVec 32 := 3#32
  let c1_i32_72 : BitVec 32 := 1#32
  let v132 : BitVec 32 := Scalar.muli c3_i32 c1_i32_72
  let v133 : BitVec 32 := Scalar.addi c0_i32_73 v132
  let c512_i32_74 : BitVec 32 := 512#32
  let v134 : BitVec 32 := Scalar.muli v133 c512_i32_74
  v134
def k0_mult6 : BitVec 32 :=
  let c0_i32_94 : BitVec 32 := 0#32
  let c4_i32 : BitVec 32 := 4#32
  let c1_i32_93 : BitVec 32 := 1#32
  let v169 : BitVec 32 := Scalar.muli c4_i32 c1_i32_93
  let v170 : BitVec 32 := Scalar.addi c0_i32_94 v169
  let c512_i32_95 : BitVec 32 := 512#32
  let v171 : BitVec 32 := Scalar.muli v170 c512_i32_95
  v171
def k0_mult7 : BitVec 32 :=
  let c0_i32_115 : BitVec 32 := 0#32
  let c5_i32 : BitVec 32 := 5#32
  let c1_i32_114 : BitVec 32 := 1#32
  let v206 : BitVec 32 := Scalar.muli c5_i32 c1_i32_114
  let v207 : BitVec 32 := Scalar.addi c0_i32_115 v206
  let c512_i32_116 : BitVec 32 := 512#32
  let v208 : BitVec 32 := Scalar.muli v207 c512_i32_116
  v208
def k0_mult8 : BitVec 32 :=
  let c0_i32_136 : BitVec 32 := 0#32
  let c6_i32 : BitVec 32 := 6#32
  let c1_i32_135 : BitVec 32 := 1#32
  let v243 : BitVec 32 := Scalar.muli c6_i32 c1_i32_135
  let v244 : BitVec 32 := Scalar.addi c0_i32_136 v243
  let c512_i32_137 : BitVec 32 := 512#32
  let v245 : BitVec 32 := Scalar.muli v244 c512_i32_137
  v245
def k0_mult9 : BitVec 32 :=
  let c0_i32_157 : BitVec 32 := 0#32
  let c7_i32 : BitVec 32 := 7#32
  let c1_i32_156 : BitVec 32 := 1#32
  let v280 : BitVec 32 := Scalar.muli c7_i32 c1_i32_156
  let v281 : BitVec 32 := Scalar.addi c0_i32_157 v280
  let c512_i32_158 : BitVec 32 := 512#32
  let v282 : BitVec 32 := Scalar.muli v281 c512_i32_158
  v282
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  h_S1x1024x128 : 0 < S1x1024x128.numel
  shapeCasts_S1x1024x128_S1024x128 : S1x1024x128.ShapeCasts S1024x128
  h_S1x512x128 : 0 < S1x512x128.numel
  shapeCasts_S1x512x128_S512x128 : S1x512x128.ShapeCasts S512x128
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x128 : S1024x1.Broadcasts S1024x128
  inb_S1x1024x128_S1x1024x128_0_0_0 : ∀ a, (![0, 0, 0] : Fin 3 → Nat) a + S1x1024x128.size a ≤ S1x1024x128.size a
  shapeCasts_S1024x128_S1x1024x128 : S1024x128.ShapeCasts S1x1024x128
  dot_S1024x128_S512x128_S1024x512_1_1_0_0_n_n_wf : DotDims.WF S1024x128 S512x128 S1024x512 [1] [1] [0] [0] [] []
  dot_S1024x512_S512x128_S1024x128_1_0_0_1_n_n_wf : DotDims.WF S1024x512 S512x128 S1024x128 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1024x128.size a ≤ S1x4096x128.size a
  k0_mult2_dvd : 512 ∣ k0_mult2.toNat
  k0_off2_inb : ∀ (r : Fin 8), ∀ a, (k0_off2 (BitVec.ofNat 32 r.val)) a + S1x512x128.size a ≤ S1x4096x128.size a
  k0_mult3_dvd : 512 ∣ k0_mult3.toNat
  k0_mult4_dvd : 512 ∣ k0_mult4.toNat
  k0_mult5_dvd : 512 ∣ k0_mult5.toNat
  k0_mult6_dvd : 512 ∣ k0_mult6.toNat
  k0_mult7_dvd : 512 ∣ k0_mult7.toNat
  k0_mult8_dvd : 512 ∣ k0_mult8.toNat
  k0_mult9_dvd : 512 ∣ k0_mult9.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S4x4096x128.size a
  hwx0_0 : ∀ i : grid0.Coords, EltTy.bits .bf16 = 32 ∨ (Rect.block (s := S4x4096x128) S1x4096x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S4x4096x128.size a
  hwx0_1 : ∀ i : grid0.Coords, EltTy.bits .f32 = 32 ∨ (Rect.block (s := S4x4096x128) S1x1024x128.size (cc0_transform_1 i) (hinb0_1 i)).WholeWords (EltTy.packing .f32)

variable [Facts₀]

def dot_S1024x128_S512x128_S1024x512_1_1_0_0_n_n : DotDims S1024x128 S512x128 S1024x512 where
  lhsContracting := [1]
  rhsContracting := [1]
  lhsNonContracting := [0]
  rhsNonContracting := [0]
  lhsBatch := []
  rhsBatch := []
  wf := dot_S1024x128_S512x128_S1024x512_1_1_0_0_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_v0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x4096x128 : Shape := ⟨3, ![4, 4096, 128]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S_, .f32⟩
  | .hbm, ⟨2, _⟩ => ⟨S4x4096x128, .f32⟩
  | .hbm, ⟨3, _⟩ => ⟨S4x4096x128, .f32⟩
  | .hbm, ⟨4, _⟩ => ⟨S4x4096x4096, .f32⟩
  | .hbm, ⟨5, _⟩ => ⟨S_, .f32⟩
  | .hbm, ⟨6, _⟩ => ⟨S4x4096, .f32⟩
  | .hbm, ⟨7, _⟩ => ⟨S_, .f32⟩
  | .hbm, ⟨8, _⟩ => ⟨S4x4096, .f32⟩
  | .hbm, ⟨9, _⟩ => ⟨S4x4096, .f32⟩
  | .hbm, ⟨10, _⟩ => ⟨S4x4096x1, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x4096, .f32⟩
  | .hbm, ⟨18, _⟩ => ⟨S4x4096x4096, .f32⟩
  | .hbm, ⟨19, _⟩ => ⟨S4x4096x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  bcast_S_S4x4096x128 : S_.BroadcastsInDim S4x4096x128 (![] : Fin 0 → Fin S4x4096x128.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.OnlineSoftmax.lean ====
/-
  The algebra of attention computed chunk by chunk, with no program in sight.

  One query row keeps a running maximum `m`, a running denominator `l` and, for one output column, a running
  numerator `a`. A chunk of scores `s j` with values `v j` updates them to
    m' = max m (max_j s j),   l' = e^(m - m') · l + Σ_j e^(s j - m'),   a' = e^(m - m') · a + Σ_j e^(s j - m') · v j,
  starting from `m = -∞`, `l = a = 0`. On the extended reals `e^(-∞) = 0`, so the first chunk simply installs its own
  maximum and sums. After any positive number of chunks of REAL scores the state is
    (M, Σ e^(s - M), Σ e^(s - M) · v)   for some real M,
  the sums running over every score seen so far (`run_succ`): rescaling by `e^(M - M')` turns `e^(s - M)` into
  `e^(s - M')`. Which real `M` is does not matter for the quotient `a / l`: softmax is invariant under a common
  shift of the scores (`ratio_shift`), so the quotient is the softmax-weighted mean of the values, whatever
  shift a reference subtracts.
-/
import Idealize.ShloMosaic.PureOps.Ideal
import Idealize.ShloMosaic.Lib.ValueIdx

noncomputable section

open scoped BigOperators
open Idealize.ShloMosaic Idealize.ShloMosaic.ValueIdx

namespace Attn

/-! ## Finite sums and maxima of reals inside the extended reals -/

/-- The coercion of a finite sum of reals is the sum of the coercions. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The coercion of reals into the extended reals is monotone, so it commutes with `max`. -/
theorem coe_max (x y : ℝ) : ((max x y : ℝ) : EReal) = max (x : EReal) (y : EReal) :=
  EReal.coe_strictMono.monotone.map_max

/-- The maximum from `-∞` of finitely many reals, at least one, is a real. -/
theorem fold_max_coe {ι : Type*} (t : Finset ι) (ht : t.Nonempty) (f : ι → ℝ) :
    ∃ M : ℝ, t.fold max (⊥ : EReal) (fun j => (f j : EReal)) = (M : EReal) := by
  classical
  induction ht using Finset.Nonempty.cons_induction with
  | singleton a => exact ⟨f a, by simp⟩
  | cons a t ha _ ih =>
    obtain ⟨M, hM⟩ := ih
    exact ⟨max (f a) M, by rw [Finset.fold_cons, hM, coe_max]⟩

/-! ## One chunk's update -/

variable {n : ℕ}

/-- The running maximum after a chunk. -/
def stepM (m : EReal) (s : Fin n → EReal) : EReal := max m (Finset.univ.fold max ⊥ s)

/-- The running denominator after a chunk. -/
def stepL (m l : EReal) (s : Fin n → EReal) : EReal :=
  Ideal.exp (m - stepM m s) * l + ∑ j, Ideal.exp (s j - stepM m s)

/-- The running numerator (one output column) after a chunk. -/
def stepA (m a : EReal) (s v : Fin n → EReal) : EReal :=
  Ideal.exp (m - stepM m s) * a + ∑ j, Ideal.exp (s j - stepM m s) * v j

/-- The state after `k` chunks, from `(-∞, 0, 0)`. -/
def run (s v : ℕ → Fin n → EReal) : ℕ → EReal × EReal × EReal
  | 0 => (⊥, 0, 0)
  | k + 1 => (stepM (run s v k).1 (s k), stepL (run s v k).1 (run s v k).2.1 (s k),
      stepA (run s v k).1 (run s v k).2.2 (s k) (v k))

theorem run_zero (s v : ℕ → Fin n → EReal) : run s v 0 = (⊥, 0, 0) := rfl

theorem run_succ' (s v : ℕ → Fin n → EReal) (k : ℕ) :
    run s v (k + 1) = (stepM (run s v k).1 (s k), stepL (run s v k).1 (run s v k).2.1 (s k),
      stepA (run s v k).1 (run s v k).2.2 (s k) (v k)) := rfl

/-- After `k + 1` chunks of real scores and values: a real maximum-so-far `M` (any real would do below), and
    the two sums of `e^(s - M)` and `e^(s - M) · v` over everything seen. -/
theorem run_succ [NeZero n] (sr vr : ℕ → Fin n → ℝ) (k : ℕ) : ∃ M : ℝ,
    run (fun c j => (sr c j : EReal)) (fun c j => (vr c j : EReal)) (k + 1)
      = ((M : EReal),
         ((∑ c ∈ Finset.range (k + 1), ∑ j, Real.exp (sr c j - M) : ℝ) : EReal),
         ((∑ c ∈ Finset.range (k + 1), ∑ j, Real.exp (sr c j - M) * vr c j : ℝ) : EReal)) := by
  induction k with
  | zero =>
    obtain ⟨M, hM⟩ := fold_max_coe (Finset.univ : Finset (Fin n)) Finset.univ_nonempty (sr 0)
    refine ⟨M, ?_⟩
    have hm : stepM (⊥ : EReal) (fun j => (sr 0 j : EReal)) = (M : EReal) := by
      unfold stepM; rw [hM]; exact max_bot_left _
    rw [run_succ', run_zero]
    simp only [stepL, stepA, hm, EReal.bot_sub, Ideal.exp_bot, zero_mul, zero_add, Finset.range_one,
      Finset.sum_singleton, ← EReal.coe_sub, Ideal.exp_coe, ← EReal.coe_mul, coe_sum]
  | succ k ih =>
    obtain ⟨M, hM⟩ := ih
    obtain ⟨Mc, hMc⟩ := fold_max_coe (Finset.univ : Finset (Fin n)) Finset.univ_nonempty (sr (k + 1))
    refine ⟨max M Mc, ?_⟩
    have hm : stepM (M : EReal) (fun j => (sr (k + 1) j : EReal)) = ((max M Mc : ℝ) : EReal) := by
      unfold stepM; rw [hMc, coe_max]
    have hre : ∀ x : ℝ, Real.exp (M - max M Mc) * Real.exp (x - M) = Real.exp (x - max M Mc) := fun x => by
      rw [← Real.exp_add]; congr 1; ring
    rw [run_succ', hM]
    simp only [stepL, stepA, hm, ← EReal.coe_sub, Ideal.exp_coe, ← EReal.coe_mul, ← coe_sum, ← EReal.coe_add]
    refine Prod.ext rfl (Prod.ext ?_ ?_)
    · show ((_ : ℝ) : EReal) = ((_ : ℝ) : EReal)
      congr 1
      rw [Finset.sum_range_succ _ (k + 1), Finset.mul_sum]
      congr 1
      refine Finset.sum_congr rfl fun c _ => ?_
      rw [Finset.mul_sum]
      exact Finset.sum_congr rfl fun j _ => hre _
    · show ((_ : ℝ) : EReal) = ((_ : ℝ) : EReal)
      congr 1
      rw [Finset.sum_range_succ _ (k + 1), Finset.mul_sum]
      congr 1
      refine Finset.sum_congr rfl fun c _ => ?_
      rw [Finset.mul_sum]
      exact Finset.sum_congr rfl fun j _ => by rw [← mul_assoc, hre]

/-! ## The quotient does not see the shift -/

/-- Softmax-weighted means are invariant under a common shift of the scores. -/
theorem ratio_shift {ι : Type*} [Fintype ι] (s v : ι → ℝ) (M M' : ℝ) :
    (∑ i, Real.exp (s i - M) * v i) / (∑ i, Real.exp (s i - M))
      = (∑ i, Real.exp (s i - M') * v i) / (∑ i, Real.exp (s i - M')) := by
  have h : ∀ i, Real.exp (s i - M) = Real.exp (M' - M) * Real.exp (s i - M') := fun i => by
    rw [← Real.exp_add]; congr 1; ring
  simp only [h, mul_assoc, ← Finset.mul_sum]
  exact mul_div_mul_left _ _ (Real.exp_ne_zero _)

/-- Normalising each weight first and then averaging is averaging and then normalising. -/
theorem sum_div_mul {ι : Type*} [Fintype ι] (e v : ι → ℝ) (L : ℝ) :
    ∑ k, e k * (1 / L) * v k = (∑ k, e k * v k) / L := by
  rw [Finset.sum_div]; exact Finset.sum_congr rfl fun k _ => by ring

/-- A sum of exponentials over a nonempty index set is not zero. -/
theorem sum_exp_ne_zero {ι : Type*} [Fintype ι] [Nonempty ι] (s : ι → ℝ) : (∑ i, Real.exp (s i)) ≠ 0 :=
  ne_of_gt (Finset.sum_pos (fun i _ => Real.exp_pos _) Finset.univ_nonempty)

/-! ## 4096 keys as eight chunks of 512 -/

/-- Key `j` of chunk `c`: row `512 c + j` (reduced mod 4096, so that it is a key for every `c`). -/
def key (c : ℕ) (j : Fin 512) : Fin 4096 := ⟨(512 * c + j.val) % 4096, Nat.mod_lt _ (by norm_num)⟩

theorem key_val (c : ℕ) (hc : c < 8) (j : Fin 512) : (key c j).val = 512 * c + j.val := by
  have := j.isLt; unfold key; simp only; omega

/-- A sum over the eight chunks' keys is the sum over all 4096 keys. -/
theorem sum_keys (F : Fin 4096 → ℝ) : ∑ c ∈ Finset.range 8, ∑ j : Fin 512, F (key c j) = ∑ jj : Fin 4096, F jj := by
  rw [Finset.sum_range (fun c => ∑ j : Fin 512, F (key c j))]
  rw [← Fintype.sum_prod_type' (fun (c : Fin 8) (j : Fin 512) => F (key c.val j))]
  refine Fintype.sum_equiv (finProdFinEquiv.trans (finCongr (by norm_num : 8 * 512 = 4096))) _ _ (fun p => ?_)
  congr 1
  apply Fin.ext
  have h1 := p.1.isLt
  have h2 := p.2.isLt
  rw [key_val _ h1]
  simp [finProdFinEquiv]
  omega

/-! ## Attention of an array with itself: the specification -/

/-- The arrays' shape: 4 batches, 4096 rows, 128 features. -/
abbrev SX : Shape := ⟨3, ![4, 4096, 128]⟩

/-- The score of query row `n` against key row `j` of batch `b`: their inner product. -/
def score (xr : SX.Idx → ℝ) (b : Fin 4) (n j : Fin 4096) : ℝ := ∑ k : Fin 128, xr (ix3 b n k) * xr (ix3 b j k)

/-- Row `n`'s softmax-weighted mean of column `d` of the batch's rows, with the scores shifted by `M`. -/
def attn (xr : SX.Idx → ℝ) (M : ℝ) (b : Fin 4) (n : Fin 4096) (d : Fin 128) : ℝ :=
  (∑ j : Fin 4096, Real.exp (score xr b n j - M) * xr (ix3 b j d)) / (∑ j : Fin 4096, Real.exp (score xr b n j - M))

/-- The shift is immaterial. -/
theorem attn_shift (xr : SX.Idx → ℝ) (M M' : ℝ) (b : Fin 4) (n : Fin 4096) (d : Fin 128) :
    attn xr M b n d = attn xr M' b n d :=
  ratio_shift (fun j => score xr b n j) (fun j => xr (ix3 b j d)) M M'

/-- THE RESULT both programs compute from a real array: at `(b, n, d)` the softmax attention of row `n`. -/
def G (xr : SX.Idx → ℝ) : SX.Idx → EReal := fun i => ((attn xr 0 (i 0) (i 1) (i 2) : ℝ) : EReal)

end Attn

end
-- ==== Proof.KernelSteps.lean ====
/-
  One chunk of the kernel's body, on whole vectors: the update of the tile's running maximum, denominator and
  numerator by a chunk of 512 keys, written with the operations the body itself uses (its matrix products into a
  zero accumulator, its lane maximum from `-∞` and lane sum from `0`, its column broadcasts), so that each payload of
  the body is one of these functions of the values it read, up to a shape cast to the same shape.
-/
import proofs.«404290_j69492570849368_3_alg».proof.Proof.Gen.KernelIdeal
import proofs.«404290_j69492570849368_3_alg».proof.Proof.OnlineSoftmax

noncomputable section

namespace Cert.KernelIdeal.KSteps

open Cert.KernelIdeal Cert.KernelIdeal.Gen Idealize.ShloMosaic Idealize.SL.Sem

/-- The scores of the tile's 1024 query rows against a chunk's 512 key rows: `q · kvᵀ`. -/
def scores (q : FVec Ideal S1024x128 .bf16) (kv : FVec Ideal S512x128 .bf16) : FVec Ideal S1024x512 .f32 :=
  matmul dot_S1024x128_S512x128_S1024x512_1_1_0_0_n_n none q kv (constant S1024x512 .f32 0x00000000#32)

/-- The running maximum after the chunk: the old one against each row's largest score. -/
def newMax (s : FVec Ideal S1024x512 .f32) (m : Vec Ideal S1024x1 .f32) : FVec Ideal S1024x1 .f32 :=
  maximumf m (shapeCast S1024x1 (multiReduction .maximumf [1] S1024 s 0xFF800000#32 reduces_S1024x512_S1024 (.inl rfl) rfl)
    shapeCasts_S1024_S1024x1)

/-- The factor `e^(m - m')` that rescales what was accumulated under the old maximum. -/
def rescale (s : FVec Ideal S1024x512 .f32) (m : Vec Ideal S1024x1 .f32) : FVec Ideal S1024x1 .f32 :=
  exp (subf m (newMax s m))

/-- The chunk's unnormalised weights `e^(s - m')`. -/
def weights (s : FVec Ideal S1024x512 .f32) (m : Vec Ideal S1024x1 .f32) : FVec Ideal S1024x512 .f32 :=
  exp (subf s (broadcastTo S1024x512 (newMax s m) broadcasts_S1024x1_S1024x512))

/-- The running denominator after the chunk. -/
def newDen (s : FVec Ideal S1024x512 .f32) (m l : Vec Ideal S1024x1 .f32) : FVec Ideal S1024x1 .f32 :=
  addf (mulf (rescale s m) l)
    (shapeCast S1024x1 (multiReduction .add [1] S1024 (weights s m) 0x00000000#32 reduces_S1024x512_S1024 (.inl rfl) rfl)
      shapeCasts_S1024_S1024x1)

/-- The running numerator after the chunk: the weights times the chunk's rows, as values. -/
def newNum (kv : FVec Ideal S512x128 .bf16) (s : FVec Ideal S1024x512 .f32) (m : Vec Ideal S1024x1 .f32)
    (a : Vec Ideal S1024x128 .f32) : FVec Ideal S1024x128 .f32 :=
  addf (mulf (broadcastTo S1024x128 (rescale s m) broadcasts_S1024x1_S1024x128) a)
    (matmul dot_S1024x512_S512x128_S1024x128_1_0_0_1_n_n none (truncf .bf16 (weights s m) bitsLt_bf16_f32) kv
      (constant S1024x128 .f32 0x00000000#32))

end Cert.KernelIdeal.KSteps

end
-- ==== Proof.KernelStepsAt.lean ====
/-
  One chunk's update read at a row: the vector-level update of the running maximum, denominator and numerator, read
  at one row (and one output column) as the scalar update of the online softmax.
-/
import proofs.«404290_j69492570849368_3_alg».proof.Proof.KernelSteps
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KSteps

open Cert.KernelIdeal Cert.KernelIdeal.Gen Idealize.ShloMosaic Idealize.SL.Sem Idealize.ShloMosaic.ValueIdx

/-! ## The two matrix products read at an index

The scores contract the feature axis of the queries with the feature axis of the keys; the numerator's product
contracts the key axis of the weights with the key axis of the chunk's rows. Each operand index is computed axis by
axis from the product's dimension numbers. -/

theorem lhs_qk_0 (i : S1024x512.Idx) (c : dot_S1024x128_S512x128_S1024x512_1_1_0_0_n_n.contr.Idx) :
    (dot_S1024x128_S512x128_S1024x512_1_1_0_0_n_n.lhsIdx i c 0).val = (i 0).val := by
  unfold DotDims.lhsIdx
  rw [dif_neg (show ¬(0 : Fin S1024x128.rank) ∈ dot_S1024x128_S512x128_S1024x512_1_1_0_0_n_n.lhsBatch by decide), dif_pos (show (0 : Fin S1024x128.rank) ∈ dot_S1024x128_S512x128_S1024x512_1_1_0_0_n_n.lhsNonContracting by decide)]
  rfl
theorem lhs_qk_1 (i : S1024x512.Idx) (c : dot_S1024x128_S512x128_S1024x512_1_1_0_0_n_n.contr.Idx) :
    (dot_S1024x128_S512x128_S1024x512_1_1_0_0_n_n.lhsIdx i c 1).val = (c ⟨0, by decide⟩).val :=
  dot_S1024x128_S512x128_S1024x512_1_1_0_0_n_n.lhsIdx_val_of_single rfl i c
theorem rhs_qk_0 (i : S1024x512.Idx) (c : dot_S1024x128_S512x128_S1024x512_1_1_0_0_n_n.contr.Idx) :
    (dot_S1024x128_S512x128_S1024x512_1_1_0_0_n_n.rhsIdx i c 0).val = (i 1).val := by
  unfold DotDims.rhsIdx
  rw [dif_neg (show ¬(0 : Fin S512x128.rank) ∈ dot_S1024x128_S512x128_S1024x512_1_1_0_0_n_n.rhsBatch by decide), dif_pos (show (0 : Fin S512x128.rank) ∈ dot_S1024x128_S512x128_S1024x512_1_1_0_0_n_n.rhsNonContracting by decide)]
  rfl
theorem rhs_qk_1 (i : S1024x512.Idx) (c : dot_S1024x128_S512x128_S1024x512_1_1_0_0_n_n.contr.Idx) :
    (dot_S1024x128_S512x128_S1024x512_1_1_0_0_n_n.rhsIdx i c 1).val = (c ⟨0, by decide⟩).val :=
  dot_S1024x128_S512x128_S1024x512_1_1_0_0_n_n.rhsIdx_val_of_single rfl i c

/-- The score of query row `r` against key row `j` of the chunk is their inner product over the 128 features. -/
theorem scores_apply (q : FVec Ideal S1024x128 .bf16) (kv : FVec Ideal S512x128 .bf16) (r : Fin 1024) (j : Fin 512) :
    scores q kv (ix2 r j) = (∑ k : Fin 128, q (ix2 r k) * kv (ix2 j k) : EReal) := by
  unfold scores
  simp only [matmul]
  rw [Ideal.matmul_constant_zero_apply, ← Equiv.sum_comp (ValueIdx.contrEquiv1 dot_S1024x128_S512x128_S1024x512_1_1_0_0_n_n 128 rfl rfl).symm]
  refine Finset.sum_congr rfl fun k _ => ?_
  have hk := ValueIdx.contrEquiv1_symm_val dot_S1024x128_S512x128_S1024x512_1_1_0_0_n_n 128 rfl rfl k
  have el : dot_S1024x128_S512x128_S1024x512_1_1_0_0_n_n.lhsIdx (ix2 r j) ((ValueIdx.contrEquiv1 dot_S1024x128_S512x128_S1024x512_1_1_0_0_n_n 128 rfl rfl).symm k) = ix2 r k := funext fun a => Fin.ext (by
    match a with
    | ⟨0, _⟩ => exact lhs_qk_0 _ _
    | ⟨1, _⟩ => exact (lhs_qk_1 _ _).trans hk)
  have er : dot_S1024x128_S512x128_S1024x512_1_1_0_0_n_n.rhsIdx (ix2 r j) ((ValueIdx.contrEquiv1 dot_S1024x128_S512x128_S1024x512_1_1_0_0_n_n 128 rfl rfl).symm k) = ix2 j k := funext fun a => Fin.ext (by
    match a with
    | ⟨0, _⟩ => exact rhs_qk_0 _ _
    | ⟨1, _⟩ => exact (rhs_qk_1 _ _).trans hk)
  rw [el, er]

theorem lhs_wv_0 (i : S1024x128.Idx) (c : dot_S1024x512_S512x128_S1024x128_1_0_0_1_n_n.contr.Idx) :
    (dot_S1024x512_S512x128_S1024x128_1_0_0_1_n_n.lhsIdx i c 0).val = (i 0).val := by
  unfold DotDims.lhsIdx
  rw [dif_neg (show ¬(0 : Fin S1024x512.rank) ∈ dot_S1024x512_S512x128_S1024x128_1_0_0_1_n_n.lhsBatch by decide), dif_pos (show (0 : Fin S1024x512.rank) ∈ dot_S1024x512_S512x128_S1024x128_1_0_0_1_n_n.lhsNonContracting by decide)]
  rfl
theorem lhs_wv_1 (i : S1024x128.Idx) (c : dot_S1024x512_S512x128_S1024x128_1_0_0_1_n_n.contr.Idx) :
    (dot_S1024x512_S512x128_S1024x128_1_0_0_1_n_n.lhsIdx i c 1).val = (c ⟨0, by decide⟩).val :=
  dot_S1024x512_S512x128_S1024x128_1_0_0_1_n_n.lhsIdx_val_of_single rfl i c
theorem rhs_wv_0 (i : S1024x128.Idx) (c : dot_S1024x512_S512x128_S1024x128_1_0_0_1_n_n.contr.Idx) :
    (dot_S1024x512_S512x128_S1024x128_1_0_0_1_n_n.rhsIdx i c 0).val = (c ⟨0, by decide⟩).val :=
  dot_S1024x512_S512x128_S1024x128_1_0_0_1_n_n.rhsIdx_val_of_single rfl i c
theorem rhs_wv_1 (i : S1024x128.Idx) (c : dot_S1024x512_S512x128_S1024x128_1_0_0_1_n_n.contr.Idx) :
    (dot_S1024x512_S512x128_S1024x128_1_0_0_1_n_n.rhsIdx i c 1).val = (i 1).val := by
  unfold DotDims.rhsIdx
  rw [dif_neg (show ¬(1 : Fin S512x128.rank) ∈ dot_S1024x512_S512x128_S1024x128_1_0_0_1_n_n.rhsBatch by decide), dif_pos (show (1 : Fin S512x128.rank) ∈ dot_S1024x512_S512x128_S1024x128_1_0_0_1_n_n.rhsNonContracting by decide)]
  rfl

/-- The product of a `[1024, 512]` matrix of weights with the chunk's rows, at `(r, d)`: the sum over the 512 keys. -/
theorem wv_apply (w : FVec Ideal S1024x512 .bf16) (kv : FVec Ideal S512x128 .bf16) (r : Fin 1024) (d : Fin 128) :
    matmul dot_S1024x512_S512x128_S1024x128_1_0_0_1_n_n none w kv (constant S1024x128 .f32 0x00000000#32) (ix2 r d)
      = (∑ j : Fin 512, w (ix2 r j) * kv (ix2 j d) : EReal) := by
  simp only [matmul]
  rw [Ideal.matmul_constant_zero_apply, ← Equiv.sum_comp (ValueIdx.contrEquiv1 dot_S1024x512_S512x128_S1024x128_1_0_0_1_n_n 512 rfl rfl).symm]
  refine Finset.sum_congr rfl fun k _ => ?_
  have hk := ValueIdx.contrEquiv1_symm_val dot_S1024x512_S512x128_S1024x128_1_0_0_1_n_n 512 rfl rfl k
  have el : dot_S1024x512_S512x128_S1024x128_1_0_0_1_n_n.lhsIdx (ix2 r d) ((ValueIdx.contrEquiv1 dot_S1024x512_S512x128_S1024x128_1_0_0_1_n_n 512 rfl rfl).symm k) = ix2 r k := funext fun a => Fin.ext (by
    match a with
    | ⟨0, _⟩ => exact lhs_wv_0 _ _
    | ⟨1, _⟩ => exact (lhs_wv_1 _ _).trans hk)
  have er : dot_S1024x512_S512x128_S1024x128_1_0_0_1_n_n.rhsIdx (ix2 r d) ((ValueIdx.contrEquiv1 dot_S1024x512_S512x128_S1024x128_1_0_0_1_n_n 512 rfl rfl).symm k) = ix2 k d := funext fun a => Fin.ext (by
    match a with
    | ⟨0, _⟩ => exact (rhs_wv_0 _ _).trans hk
    | ⟨1, _⟩ => exact rhs_wv_1 _ _)
  rw [el, er]

/-! ## The lane reductions, the cast to a column and the column broadcasts, read at an index -/

/-- The word the maximum starts from is `-∞`. -/
theorem ofBits_neg_inf : Ideal.ofBits .f32 0xFF800000#32 = (⊥ : EReal) := by simp [Ideal.ofBits, Ideal.ieee]

/-- Inserting coordinate `j` on axis 1 of the row index `r` gives `(r, j)`. -/
theorem lift_row (r : Fin 1024) (j : Fin 512) :
    reduces_S1024x512_S1024.lift (ix1 r) j = ix2 r j :=
  funext fun a => Fin.ext (by
    match a with
    | ⟨0, _⟩ => rfl
    | ⟨1, _⟩ => rfl)

/-- A row's maximum from `-∞`: the fold of `max` over the row's 512 entries. -/
theorem rowMax_apply (s : FVec Ideal S1024x512 .f32) (r : Fin 1024) :
    multiReduction (F := Ideal) .maximumf [1] S1024 s 0xFF800000#32 reduces_S1024x512_S1024 (.inl rfl) rfl (ix1 r)
      = (Finset.univ : Finset (Fin 512)).fold max (⊥ : EReal) (fun j => s (ix2 r j)) := by
  refine (Ideal.multiReduction_maximumf_single s 0xFF800000#32 reduces_S1024x512_S1024 (.inl rfl) rfl (ix1 r)).trans ?_
  show (Finset.univ : Finset (Fin 512)).fold max (Ideal.ofBits .f32 0xFF800000#32) (s ∘ reduces_S1024x512_S1024.lift (ix1 r)) = _
  rw [ofBits_neg_inf]
  have hf : (s ∘ reduces_S1024x512_S1024.lift (ix1 r)) = fun j : Fin 512 => s (ix2 r j) :=
    funext fun j => congrArg s (lift_row r j)
  rw [hf]
  rfl

/-- A row's sum from `0`: the sum of the row's 512 entries. -/
theorem rowSum_apply (s : FVec Ideal S1024x512 .f32) (r : Fin 1024) :
    multiReduction (F := Ideal) .add [1] S1024 s 0x00000000#32 reduces_S1024x512_S1024 (.inl rfl) rfl (ix1 r)
      = (∑ j : Fin 512, s (ix2 r j) : EReal) := by
  refine (Ideal.multiReduction_add_single s 0x00000000#32 reduces_S1024x512_S1024 (.inl rfl) rfl (ix1 r)).trans ?_
  show (∑ j : Fin 512, s (reduces_S1024x512_S1024.lift (ix1 r) j) : EReal) = _
  exact Finset.sum_congr rfl fun j _ => congrArg s (lift_row r j)

/-- A `[1024]` vector cast to a `[1024, 1]` column reads, at `(r, 0)`, the vector at `r`. -/
theorem castCol_apply {α : Type} (v : S1024.Idx → α) (r : Fin 1024) (u : Fin 1) :
    shapeCast S1024x1 v shapeCasts_S1024_S1024x1 (ix2 r u) = v (ix1 r) :=
  shapeCast_apply v _ _ _ (by
    have hu : u.val = 0 := by omega
    rw [Shape.rowMajor_val_one, Shape.rowMajor_val_two]
    show r.val = r.val * 1 + u.val
    omega)

/-- A `[1024, 1]` column broadcast along 512 lanes reads, at `(r, j)`, the column at `(r, 0)`. -/
theorem bcast512_apply {α : Type} (v : S1024x1.Idx → α) (r : Fin 1024) (j : Fin 512) :
    broadcastTo S1024x512 v broadcasts_S1024x1_S1024x512 (ix2 r j) = v (ix2 r (0 : Fin 1)) := by
  refine broadcastTo_apply v _ (ix2 r j) (ix2 r (0 : Fin 1)) fun ax => ?_
  match ax with
  | ⟨0, _⟩ =>
    show r.val = if (1024 : Nat) = 1 then 0 else r.val
    rw [if_neg (by decide)]
  | ⟨1, _⟩ => rfl

/-- A `[1024, 1]` column broadcast along 128 lanes reads, at `(r, d)`, the column at `(r, 0)`. -/
theorem bcast128_apply {α : Type} (v : S1024x1.Idx → α) (r : Fin 1024) (d : Fin 128) :
    broadcastTo S1024x128 v broadcasts_S1024x1_S1024x128 (ix2 r d) = v (ix2 r (0 : Fin 1)) := by
  refine broadcastTo_apply v _ (ix2 r d) (ix2 r (0 : Fin 1)) fun ax => ?_
  match ax with
  | ⟨0, _⟩ =>
    show r.val = if (1024 : Nat) = 1 then 0 else r.val
    rw [if_neg (by decide)]
  | ⟨1, _⟩ => rfl

/-! ## The chunk's update read at a row -/

/-- The new maximum of row `r`: the old one against the largest of the row's scores. -/
theorem newMax_apply (s : FVec Ideal S1024x512 .f32) (M : Vec Ideal S1024x1 .f32) (r : Fin 1024) :
    newMax s M (ix2 r (0 : Fin 1))
      = max (M (ix2 r (0 : Fin 1))) ((Finset.univ : Finset (Fin 512)).fold max (⊥ : EReal) (fun j => s (ix2 r j))) := by
  unfold newMax
  rw [maximumf_apply, castCol_apply, rowMax_apply]

/-- The rescaling factor of row `r`: `e^(m - m')`. -/
theorem rescale_apply (s : FVec Ideal S1024x512 .f32) (M : Vec Ideal S1024x1 .f32) (r : Fin 1024) :
    rescale s M (ix2 r (0 : Fin 1)) = Ideal.exp (M (ix2 r (0 : Fin 1)) - newMax s M (ix2 r (0 : Fin 1))) := rfl

/-- The weight of key `j` for row `r`: `e^(s - m')`, the new maximum read from the row's column entry. -/
theorem weights_apply (s : FVec Ideal S1024x512 .f32) (M : Vec Ideal S1024x1 .f32) (r : Fin 1024) (j : Fin 512) :
    weights s M (ix2 r j) = Ideal.exp (s (ix2 r j) - newMax s M (ix2 r (0 : Fin 1))) := by
  unfold weights
  show Ideal.exp (s (ix2 r j) - broadcastTo S1024x512 (newMax s M) broadcasts_S1024x1_S1024x512 (ix2 r j)) = _
  rw [bcast512_apply]

/-- The new denominator of row `r`. -/
theorem newDen_apply (s : FVec Ideal S1024x512 .f32) (M L : Vec Ideal S1024x1 .f32) (r : Fin 1024) :
    newDen s M L (ix2 r (0 : Fin 1))
      = rescale s M (ix2 r (0 : Fin 1)) * L (ix2 r (0 : Fin 1)) + (∑ j : Fin 512, weights s M (ix2 r j) : EReal) := by
  unfold newDen
  rw [addf_apply, mulf_apply, castCol_apply, rowSum_apply]

/-- The new numerator of row `r`, column `d`. -/
theorem newNum_apply (kv : FVec Ideal S512x128 .bf16) (s : FVec Ideal S1024x512 .f32) (M : Vec Ideal S1024x1 .f32)
    (A : Vec Ideal S1024x128 .f32) (r : Fin 1024) (d : Fin 128) :
    newNum kv s M A (ix2 r d)
      = rescale s M (ix2 r (0 : Fin 1)) * A (ix2 r d) + (∑ j : Fin 512, weights s M (ix2 r j) * kv (ix2 j d) : EReal) := by
  unfold newNum
  rw [addf_apply, mulf_apply, bcast128_apply, wv_apply]
  rfl

/-- ONE CHUNK AT A ROW. If row `r` of the running maximum, denominator and (column `d` of the) numerator hold
    `m`, `l`, `a`, the row's scores against the chunk's keys are the reals `sr j` and column `d` of the chunk's rows
    the reals `vr j`, then after the chunk they hold the scalar update of `(m, l, a)` by `sr` and `vr`. -/
theorem step_at (q : FVec Ideal S1024x128 .bf16) (kv : FVec Ideal S512x128 .bf16)
    (M L : Vec Ideal S1024x1 .f32) (A : Vec Ideal S1024x128 .f32) (r : Fin 1024) (d : Fin 128) (m l a : EReal)
    (sr vr : Fin 512 → ℝ)
    (hM : M (ix2 r (0 : Fin 1)) = m) (hL : L (ix2 r (0 : Fin 1)) = l) (hA : A (ix2 r d) = a)
    (hs : ∀ j : Fin 512, (∑ k : Fin 128, q (ix2 r k) * kv (ix2 j k) : EReal) = ((sr j : ℝ) : EReal))
    (hv : ∀ j : Fin 512, kv (ix2 j d) = ((vr j : ℝ) : EReal)) :
    newMax (scores q kv) M (ix2 r (0 : Fin 1)) = Attn.stepM m (fun j => ((sr j : ℝ) : EReal))
    ∧ newDen (scores q kv) M L (ix2 r (0 : Fin 1)) = Attn.stepL m l (fun j => ((sr j : ℝ) : EReal))
    ∧ newNum kv (scores q kv) M A (ix2 r d)
        = Attn.stepA m a (fun j => ((sr j : ℝ) : EReal)) (fun j => ((vr j : ℝ) : EReal)) := by
  -- the row's scores are the given reals
  have hsc : ∀ j : Fin 512, scores q kv (ix2 r j) = ((sr j : ℝ) : EReal) := fun j =>
    (scores_apply q kv r j).trans (hs j)
  -- the new maximum is the scalar update's
  have hmax : newMax (scores q kv) M (ix2 r (0 : Fin 1)) = Attn.stepM m (fun j => ((sr j : ℝ) : EReal)) := by
    rw [newMax_apply, hM]
    unfold Attn.stepM
    simp only [hsc]
  refine ⟨hmax, ?_, ?_⟩
  · rw [newDen_apply, rescale_apply, hmax, hM, hL]
    unfold Attn.stepL
    simp only [weights_apply, hmax, hsc]
  · rw [newNum_apply, rescale_apply, hmax, hM, hA]
    unfold Attn.stepA
    simp only [weights_apply, hmax, hsc, hv]

end Cert.KernelIdeal.KSteps

end
-- ==== Proof.KernelPoint.lean ====
/-
  The kernel's body at one grid point, read at one output element.

  The body's one store to the output block is `acc / l` (broadcast down the columns), where `acc`, `l` and the
  running maximum `m` live in three scratch buffers that the body resets and then updates once per chunk of 512
  keys, each update a whole-buffer store read back whole by the next chunk. Read at row `r` (and column `d` of
  `acc`) each chunk is the scalar update of OnlineSoftmax.lean by that row's scores against the chunk's keys, so
  after the eight chunks the row holds `(M, Σ e^(s - M), Σ e^(s - M) · x)` over all 4096 keys, and the quotient is the
  softmax attention of the row.
-/
import proofs.«404290_j69492570849368_3_alg».proof.Proof.KernelStepsAt
import proofs.«404290_j69492570849368_3_alg».proof.Proof.Gen.KernelIdeal.Frame
import Idealize.ShloMosaic.Lib.Pipeline.Value
import Idealize.ShloMosaic.Lib.ValueLayout
import Idealize.ShloMosaic.Lib.IdealHost

set_option maxRecDepth 16384

noncomputable section

namespace Cert.KernelIdeal.KPoint

open Cert.KernelIdeal Cert.KernelIdeal.Gen Cert.KernelIdeal.KSteps Idealize.ShloMosaic Idealize.ShloMosaic.TcCoe Idealize.SL.Sem
open Idealize.ShloMosaic.Tactic Idealize.ShloMosaic.ValueIdx

/-! ## Whole-buffer stores read back whole -/

theorem zeros2 : (![0, 0] : Fin 2 → Nat) = fun _ => 0 := by
  funext a; match a with | ⟨0, _⟩ => rfl | ⟨1, _⟩ => rfl

theorem zeros3 : (![0, 0, 0] : Fin 3 → Nat) = fun _ => 0 := by
  funext a; match a with | ⟨0, _⟩ => rfl | ⟨1, _⟩ => rfl | ⟨2, _⟩ => rfl

/-- A load of a whole buffer after stores the LAST of which filled the whole buffer reads that store's value,
    whatever the earlier stores were. -/
theorem readCov_cons_whole {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

/-! ## The output payload and the three resets, at a row -/

/-- A column of 1024 broadcast across 128 lanes reads, at `(r, d)`, the column at `r`. -/
theorem bcast_col128 (L : S1024x1.Idx → EReal) (r : Fin 1024) (d : Fin 128) :
    broadcastTo S1024x128 L broadcasts_S1024x1_S1024x128 (ix2 r d) = L (ix2 r (0 : Fin 1)) :=
  broadcastTo_apply L _ (ix2 r d) (ix2 r (0 : Fin 1)) (fun a => by
    match a with
    | ⟨0, _⟩ => rfl
    | ⟨1, _⟩ => rfl)

/-- The value the body stores to the output block, at `(0, r, d)`: row `r`'s numerator over its denominator. -/
theorem pay1_at (A : Vec Ideal S1024x128 .f32) (L : Vec Ideal S1024x1 .f32) (r : Fin 1024) (d : Fin 128) :
    k0_pay1 (F := Ideal) A L (ix3 (0 : Fin 1) r d) = Ideal.div (A (ix2 r d)) (L (ix2 r (0 : Fin 1))) := by
  unfold k0_pay1
  rw [shapeCast_ab_1ab_apply]
  show Ideal.div (A _) (broadcastTo S1024x128 L broadcasts_S1024x1_S1024x128 _) = _
  rw [bcast_col128]

/-- The running maximum is reset to `-∞`. -/
theorem pay2_at (r : Fin 1024) : k0_pay2 (F := Ideal) (ix2 r (0 : Fin 1)) = ⊥ := by
  unfold k0_pay2
  rw [shapeCast_self]
  show Ideal.ofBits .f32 0xFF800000#32 = ⊥
  simp [Ideal.ofBits, Ideal.ieee]

/-- The running denominator is reset to zero. -/
theorem pay3_at (r : Fin 1024) : k0_pay3 (F := Ideal) (ix2 r (0 : Fin 1)) = 0 := by
  unfold k0_pay3
  rw [shapeCast_self]
  show Ideal.ofBits .f32 0x00000000#32 = 0
  exact Ideal.ofBits_zero_f32

/-- The running numerator is reset to zero. -/
theorem pay4_at (r : Fin 1024) (d : Fin 128) : k0_pay4 (F := Ideal) (ix2 r d) = 0 := by
  unfold k0_pay4
  rw [shapeCast_self]
  show Ideal.ofBits .f32 0x00000000#32 = 0
  exact Ideal.ofBits_zero_f32

/-! ## Rows of the resident block

The block `x0` staged for the grid point is a whole batch, `[1, 4096, 128]`. The body loads a run of rows of it —
the tile's 1024 query rows, or a chunk's 512 key rows — through a unit-stride rectangle at a row offset. -/

/-- A load of `R` rows from row offset `n0` reads, at `(0, j, k)`, the block at row `n0 + j`. -/
theorem ld_rows {R : ℕ} (x0 : Vec Ideal S1x4096x128 .bf16) (off : Fin 3 → ℕ) (n0 : ℕ) (hoff : off = ![0, n0, 0])
    (inb : ∀ a, off a + (![1, R, 128] : Fin 3 → ℕ) a ≤ S1x4096x128.size a) (j : Fin R) (k : Fin 128)
    (jj : Fin 4096) (hjj : jj.val = n0 + j.val) :
    View.ld (Val := Elt Ideal) x0 (Rect.unit off ![1, R, 128] inb) (ix3 (0 : Fin 1) j k) = x0 (ix3 (0 : Fin 1) jj k) := by
  subst hoff
  show x0 _ = x0 _
  refine congrArg x0 (funext fun a => Fin.ext ?_)
  match a with
  | ⟨0, _⟩ => rfl
  | ⟨1, _⟩ => show n0 + 1 * j.val = jj.val; omega
  | ⟨2, _⟩ => show 0 + 1 * k.val = k.val; omega

/-- A chunk's 512 loaded rows as a matrix `[512, 128]`: every chunk's payload casts its load this way. -/
def kvOf (v : Vec Ideal S1x512x128 .bf16) : FVec Ideal S512x128 .bf16 :=
  shapeCast S512x128 v shapeCasts_S1x512x128_S512x128

theorem kvOf_at (v : Vec Ideal S1x512x128 .bf16) (j : Fin 512) (k : Fin 128) :
    kvOf v (ix2 j k) = v (ix3 (0 : Fin 1) j k) := by
  unfold kvOf; rw [shapeCast_1ab_ab_apply]

section Rows

variable (x0 : Vec Ideal S1x4096x128 .bf16) (xr : Attn.SX.Idx → ℝ) (b : Fin 4)
  (hx0 : ∀ (j : Fin 4096) (k : Fin 128), x0 (ix3 (0 : Fin 1) j k) = ((xr (ix3 b j k) : ℝ) : EReal))
include hx0

/-- Chunk `c`'s key rows are rows `512 c + j` of the batch. -/
theorem kv_rows (c : ℕ) (hc : c < 8) (off : Fin 3 → ℕ) (hoff : off = ![0, 512 * c, 0])
    (inb : ∀ a, off a + S1x512x128.size a ≤ S1x4096x128.size a) (j : Fin 512) (k : Fin 128) :
    kvOf (View.ld (Val := Elt Ideal) x0 (Rect.unit off S1x512x128.size inb)) (ix2 j k)
      = ((xr (ix3 b (Attn.key c j) k) : ℝ) : EReal) := by
  rw [kvOf_at, ld_rows x0 off (512 * c) hoff inb j k (Attn.key c j) (Attn.key_val c hc j), hx0]

/-- The tile's query rows are rows `1024 i₁ + r` of the batch, times the scale `1.0`. -/
theorem q_rows (i1 : ℕ) (off : Fin 3 → ℕ) (hoff : off = ![0, 1024 * i1, 0])
    (inb : ∀ a, off a + S1x1024x128.size a ≤ S1x4096x128.size a) (r : Fin 1024) (n : Fin 4096)
    (hn : n.val = 1024 * i1 + r.val) (k : Fin 128) :
    k0_pay5 (F := Ideal) (View.ld (Val := Elt Ideal) x0 (Rect.unit off S1x1024x128.size inb)) (ix2 r k)
      = ((xr (ix3 b n k) : ℝ) : EReal) := by
  unfold k0_pay5
  rw [truncf_apply, mulf_apply, extf_apply, broadcast_apply, Ideal.ofBits_def, Ideal.ofBits_one_f32, mul_one,
    shapeCast_1ab_ab_apply, ld_rows x0 off (1024 * i1) hoff inb r k n hn, hx0]

omit hx0 in
/-- A query row against a chunk's key row: the inner product of two rows of the real array. -/
theorem score_row (q : FVec Ideal S1024x128 .bf16) (kv : FVec Ideal S512x128 .bf16) (r : Fin 1024) (n : Fin 4096)
    (c : ℕ) (hq : ∀ k, q (ix2 r k) = ((xr (ix3 b n k) : ℝ) : EReal))
    (hkv : ∀ j k, kv (ix2 j k) = ((xr (ix3 b (Attn.key c j) k) : ℝ) : EReal)) (j : Fin 512) :
    (∑ k : Fin 128, q (ix2 r k) * kv (ix2 j k) : EReal) = ((Attn.score xr b n (Attn.key c j) : ℝ) : EReal) := by
  simp only [hq, hkv, ← EReal.coe_mul, ← Attn.coe_sum]
  rfl

end Rows

/-! ## The row's state, chunk by chunk -/

/-- Row `r` of the three scratch buffers (column `d` of the numerator) holds the scalar state `st`. -/
def RowInv (M L : Vec Ideal S1024x1 .f32) (A : Vec Ideal S1024x128 .f32) (r : Fin 1024) (d : Fin 128)
    (st : EReal × EReal × EReal) : Prop :=
  M (ix2 r (0 : Fin 1)) = st.1 ∧ L (ix2 r (0 : Fin 1)) = st.2.1 ∧ A (ix2 r d) = st.2.2

/-- The scalar state after one more chunk of scores `sr` and values `vr`. -/
abbrev next (st : EReal × EReal × EReal) (sr vr : Fin 512 → ℝ) : EReal × EReal × EReal :=
  (Attn.stepM st.1 (fun j => ((sr j : ℝ) : EReal)), Attn.stepL st.1 st.2.1 (fun j => ((sr j : ℝ) : EReal)),
    Attn.stepA st.1 st.2.2 (fun j => ((sr j : ℝ) : EReal)) (fun j => ((vr j : ℝ) : EReal)))

/-- One chunk, on the vector functions: the row's state moves by the scalar update. -/
theorem row_step {q : FVec Ideal S1024x128 .bf16} {kv : FVec Ideal S512x128 .bf16} {M L : Vec Ideal S1024x1 .f32}
    {A : Vec Ideal S1024x128 .f32} {r : Fin 1024} {d : Fin 128} {st : EReal × EReal × EReal} {sr vr : Fin 512 → ℝ}
    (inv : RowInv M L A r d st)
    (hs : ∀ j : Fin 512, (∑ k : Fin 128, q (ix2 r k) * kv (ix2 j k) : EReal) = ((sr j : ℝ) : EReal))
    (hv : ∀ j : Fin 512, kv (ix2 j d) = ((vr j : ℝ) : EReal)) :
    RowInv (newMax (scores q kv) M) (newDen (scores q kv) M L) (newNum kv (scores q kv) M A) r d (next st sr vr) :=
  step_at q kv M L A r d st.1 st.2.1 st.2.2 sr vr inv.1 inv.2.1 inv.2.2 hs hv

/-! Each chunk of the unrolled loop stores its three values through payloads of its own; each is the chunk update
above of the values read back, cast to the shape it already has. -/

/-- The first chunk: its scores are computed from the two loads. -/
theorem chunk0_row {v15 : Vec Ideal S1x1024x128 .bf16} {v26 : Vec Ideal S1x512x128 .bf16} {M L : Vec Ideal S1024x1 .f32} {A : Vec Ideal S1024x128 .f32}
    {r : Fin 1024} {d : Fin 128} {st st' : EReal × EReal × EReal} {sr vr : Fin 512 → ℝ}
    (inv : RowInv M L A r d st) (hst : st' = next st sr vr)
    (hs : ∀ j : Fin 512, (∑ k : Fin 128, (k0_pay5 (F := Ideal) v15) (ix2 r k) * (kvOf v26) (ix2 j k) : EReal) = ((sr j : ℝ) : EReal))
    (hv : ∀ j : Fin 512, (kvOf v26) (ix2 j d) = ((vr j : ℝ) : EReal)) :
    RowInv (k0_pay14 (F := Ideal) M (k0_pay8 (F := Ideal) v15 v26)) (k0_pay12 (F := Ideal) (k0_pay7 (F := Ideal) v15 v26) M (k0_pay8 (F := Ideal) v15 v26) L) (k0_pay13 (F := Ideal) (k0_pay6 (F := Ideal) v26) (k0_pay7 (F := Ideal) v15 v26) M (k0_pay8 (F := Ideal) v15 v26) A) r d st' := by
  subst hst
  have e1 : k0_pay14 (F := Ideal) M (k0_pay8 (F := Ideal) v15 v26) = newMax (scores (k0_pay5 (F := Ideal) v15) (kvOf v26)) M := shapeCast_self _ _
  have e2 : k0_pay12 (F := Ideal) (k0_pay7 (F := Ideal) v15 v26) M (k0_pay8 (F := Ideal) v15 v26) L = newDen (scores (k0_pay5 (F := Ideal) v15) (kvOf v26)) M L := shapeCast_self _ _
  have e3 : k0_pay13 (F := Ideal) (k0_pay6 (F := Ideal) v26) (k0_pay7 (F := Ideal) v15 v26) M (k0_pay8 (F := Ideal) v15 v26) A = newNum (kvOf v26) (scores (k0_pay5 (F := Ideal) v15) (kvOf v26)) M A := shapeCast_self _ _
  rw [e1, e2, e3]
  exact row_step inv hs hv

/-- The second chunk. -/
theorem chunk1_row {q : FVec Ideal S1024x128 .bf16} {v : Vec Ideal S1x512x128 .bf16} {M L : Vec Ideal S1024x1 .f32} {A : Vec Ideal S1024x128 .f32}
    {r : Fin 1024} {d : Fin 128} {st st' : EReal × EReal × EReal} {sr vr : Fin 512 → ℝ}
    (inv : RowInv M L A r d st) (hst : st' = next st sr vr)
    (hs : ∀ j : Fin 512, (∑ k : Fin 128, (q) (ix2 r k) * (kvOf v) (ix2 j k) : EReal) = ((sr j : ℝ) : EReal))
    (hv : ∀ j : Fin 512, (kvOf v) (ix2 j d) = ((vr j : ℝ) : EReal)) :
    RowInv (k0_pay22 (F := Ideal) (k0_pay16 (F := Ideal) q v) M) (k0_pay20 (F := Ideal) (k0_pay16 (F := Ideal) q v) M L) (k0_pay21 (F := Ideal) (k0_pay15 (F := Ideal) v) (k0_pay16 (F := Ideal) q v) M A) r d st' := by
  subst hst
  have e1 : k0_pay22 (F := Ideal) (k0_pay16 (F := Ideal) q v) M = newMax (scores (q) (kvOf v)) M := shapeCast_self _ _
  have e2 : k0_pay20 (F := Ideal) (k0_pay16 (F := Ideal) q v) M L = newDen (scores (q) (kvOf v)) M L := shapeCast_self _ _
  have e3 : k0_pay21 (F := Ideal) (k0_pay15 (F := Ideal) v) (k0_pay16 (F := Ideal) q v) M A = newNum (kvOf v) (scores (q) (kvOf v)) M A := shapeCast_self _ _
  rw [e1, e2, e3]
  exact row_step inv hs hv

/-- The third chunk. -/
theorem chunk2_row {q : FVec Ideal S1024x128 .bf16} {v : Vec Ideal S1x512x128 .bf16} {M L : Vec Ideal S1024x1 .f32} {A : Vec Ideal S1024x128 .f32}
    {r : Fin 1024} {d : Fin 128} {st st' : EReal × EReal × EReal} {sr vr : Fin 512 → ℝ}
    (inv : RowInv M L A r d st) (hst : st' = next st sr vr)
    (hs : ∀ j : Fin 512, (∑ k : Fin 128, (q) (ix2 r k) * (kvOf v) (ix2 j k) : EReal) = ((sr j : ℝ) : EReal))
    (hv : ∀ j : Fin 512, (kvOf v) (ix2 j d) = ((vr j : ℝ) : EReal)) :
    RowInv (k0_pay30 (F := Ideal) (k0_pay24 (F := Ideal) q v) M) (k0_pay28 (F := Ideal) (k0_pay24 (F := Ideal) q v) M L) (k0_pay29 (F := Ideal) (k0_pay23 (F := Ideal) v) (k0_pay24 (F := Ideal) q v) M A) r d st' := by
  subst hst
  have e1 : k0_pay30 (F := Ideal) (k0_pay24 (F := Ideal) q v) M = newMax (scores (q) (kvOf v)) M := shapeCast_self _ _
  have e2 : k0_pay28 (F := Ideal) (k0_pay24 (F := Ideal) q v) M L = newDen (scores (q) (kvOf v)) M L := shapeCast_self _ _
  have e3 : k0_pay29 (F := Ideal) (k0_pay23 (F := Ideal) v) (k0_pay24 (F := Ideal) q v) M A = newNum (kvOf v) (scores (q) (kvOf v)) M A := shapeCast_self _ _
  rw [e1, e2, e3]
  exact row_step inv hs hv

/-- The fourth chunk. -/
theorem chunk3_row {q : FVec Ideal S1024x128 .bf16} {v : Vec Ideal S1x512x128 .bf16} {M L : Vec Ideal S1024x1 .f32} {A : Vec Ideal S1024x128 .f32}
    {r : Fin 1024} {d : Fin 128} {st st' : EReal × EReal × EReal} {sr vr : Fin 512 → ℝ}
    (inv : RowInv M L A r d st) (hst : st' = next st sr vr)
    (hs : ∀ j : Fin 512, (∑ k : Fin 128, (q) (ix2 r k) * (kvOf v) (ix2 j k) : EReal) = ((sr j : ℝ) : EReal))
    (hv : ∀ j : Fin 512, (kvOf v) (ix2 j d) = ((vr j : ℝ) : EReal)) :
    RowInv (k0_pay38 (F := Ideal) (k0_pay32 (F := Ideal) q v) M) (k0_pay36 (F := Ideal) (k0_pay32 (F := Ideal) q v) M L) (k0_pay37 (F := Ideal) (k0_pay31 (F := Ideal) v) (k0_pay32 (F := Ideal) q v) M A) r d st' := by
  subst hst
  have e1 : k0_pay38 (F := Ideal) (k0_pay32 (F := Ideal) q v) M = newMax (scores (q) (kvOf v)) M := shapeCast_self _ _
  have e2 : k0_pay36 (F := Ideal) (k0_pay32 (F := Ideal) q v) M L = newDen (scores (q) (kvOf v)) M L := shapeCast_self _ _
  have e3 : k0_pay37 (F := Ideal) (k0_pay31 (F := Ideal) v) (k0_pay32 (F := Ideal) q v) M A = newNum (kvOf v) (scores (q) (kvOf v)) M A := shapeCast_self _ _
  rw [e1, e2, e3]
  exact row_step inv hs hv

/-- The fifth chunk. -/
theorem chunk4_row {q : FVec Ideal S1024x128 .bf16} {v : Vec Ideal S1x512x128 .bf16} {M L : Vec Ideal S1024x1 .f32} {A : Vec Ideal S1024x128 .f32}
    {r : Fin 1024} {d : Fin 128} {st st' : EReal × EReal × EReal} {sr vr : Fin 512 → ℝ}
    (inv : RowInv M L A r d st) (hst : st' = next st sr vr)
    (hs : ∀ j : Fin 512, (∑ k : Fin 128, (q) (ix2 r k) * (kvOf v) (ix2 j k) : EReal) = ((sr j : ℝ) : EReal))
    (hv : ∀ j : Fin 512, (kvOf v) (ix2 j d) = ((vr j : ℝ) : EReal)) :
    RowInv (k0_pay46 (F := Ideal) q (k0_pay39 (F := Ideal) v) M) (k0_pay44 (F := Ideal) q (k0_pay39 (F := Ideal) v) M L) (k0_pay45 (F := Ideal) q (k0_pay39 (F := Ideal) v) M A) r d st' := by
  subst hst
  have e1 : k0_pay46 (F := Ideal) q (k0_pay39 (F := Ideal) v) M = newMax (scores (q) (kvOf v)) M := shapeCast_self _ _
  have e2 : k0_pay44 (F := Ideal) q (k0_pay39 (F := Ideal) v) M L = newDen (scores (q) (kvOf v)) M L := shapeCast_self _ _
  have e3 : k0_pay45 (F := Ideal) q (k0_pay39 (F := Ideal) v) M A = newNum (kvOf v) (scores (q) (kvOf v)) M A := shapeCast_self _ _
  rw [e1, e2, e3]
  exact row_step inv hs hv

/-- The sixth chunk. -/
theorem chunk5_row {q : FVec Ideal S1024x128 .bf16} {v : Vec Ideal S1x512x128 .bf16} {M L : Vec Ideal S1024x1 .f32} {A : Vec Ideal S1024x128 .f32}
    {r : Fin 1024} {d : Fin 128} {st st' : EReal × EReal × EReal} {sr vr : Fin 512 → ℝ}
    (inv : RowInv M L A r d st) (hst : st' = next st sr vr)
    (hs : ∀ j : Fin 512, (∑ k : Fin 128, (q) (ix2 r k) * (kvOf v) (ix2 j k) : EReal) = ((sr j : ℝ) : EReal))
    (hv : ∀ j : Fin 512, (kvOf v) (ix2 j d) = ((vr j : ℝ) : EReal)) :
    RowInv (k0_pay54 (F := Ideal) q v M) (k0_pay52 (F := Ideal) q v M L) (k0_pay53 (F := Ideal) q v M A) r d st' := by
  subst hst
  have e1 : k0_pay54 (F := Ideal) q v M = newMax (scores (q) (kvOf v)) M := shapeCast_self _ _
  have e2 : k0_pay52 (F := Ideal) q v M L = newDen (scores (q) (kvOf v)) M L := shapeCast_self _ _
  have e3 : k0_pay53 (F := Ideal) q v M A = newNum (kvOf v) (scores (q) (kvOf v)) M A := shapeCast_self _ _
  rw [e1, e2, e3]
  exact row_step inv hs hv

/-- The seventh chunk. -/
theorem chunk6_row {q : FVec Ideal S1024x128 .bf16} {v : Vec Ideal S1x512x128 .bf16} {M L : Vec Ideal S1024x1 .f32} {A : Vec Ideal S1024x128 .f32}
    {r : Fin 1024} {d : Fin 128} {st st' : EReal × EReal × EReal} {sr vr : Fin 512 → ℝ}
    (inv : RowInv M L A r d st) (hst : st' = next st sr vr)
    (hs : ∀ j : Fin 512, (∑ k : Fin 128, (q) (ix2 r k) * (kvOf v) (ix2 j k) : EReal) = ((sr j : ℝ) : EReal))
    (hv : ∀ j : Fin 512, (kvOf v) (ix2 j d) = ((vr j : ℝ) : EReal)) :
    RowInv (k0_pay62 (F := Ideal) q v M) (k0_pay60 (F := Ideal) q v M L) (k0_pay61 (F := Ideal) q v M A) r d st' := by
  subst hst
  have e1 : k0_pay62 (F := Ideal) q v M = newMax (scores (q) (kvOf v)) M := shapeCast_self _ _
  have e2 : k0_pay60 (F := Ideal) q v M L = newDen (scores (q) (kvOf v)) M L := shapeCast_self _ _
  have e3 : k0_pay61 (F := Ideal) q v M A = newNum (kvOf v) (scores (q) (kvOf v)) M A := shapeCast_self _ _
  rw [e1, e2, e3]
  exact row_step inv hs hv

/-- The eighth chunk. -/
theorem chunk7_row {q : FVec Ideal S1024x128 .bf16} {v : Vec Ideal S1x512x128 .bf16} {M L : Vec Ideal S1024x1 .f32} {A : Vec Ideal S1024x128 .f32}
    {r : Fin 1024} {d : Fin 128} {st st' : EReal × EReal × EReal} {sr vr : Fin 512 → ℝ}
    (inv : RowInv M L A r d st) (hst : st' = next st sr vr)
    (hs : ∀ j : Fin 512, (∑ k : Fin 128, (q) (ix2 r k) * (kvOf v) (ix2 j k) : EReal) = ((sr j : ℝ) : EReal))
    (hv : ∀ j : Fin 512, (kvOf v) (ix2 j d) = ((vr j : ℝ) : EReal)) :
    RowInv (k0_pay70 (F := Ideal) q v M) (k0_pay68 (F := Ideal) q v M L) (k0_pay69 (F := Ideal) q v M A) r d st' := by
  subst hst
  have e1 : k0_pay70 (F := Ideal) q v M = newMax (scores (q) (kvOf v)) M := shapeCast_self _ _
  have e2 : k0_pay68 (F := Ideal) q v M L = newDen (scores (q) (kvOf v)) M L := shapeCast_self _ _
  have e3 : k0_pay69 (F := Ideal) q v M A = newNum (kvOf v) (scores (q) (kvOf v)) M A := shapeCast_self _ _
  rw [e1, e2, e3]
  exact row_step inv hs hv

/-- The quotient the body stores, from the row's final state. -/
theorem finish_row {M L : Vec Ideal S1024x1 .f32} {A : Vec Ideal S1024x128 .f32} {r : Fin 1024} {d : Fin 128}
    {st : EReal × EReal × EReal} (inv : RowInv M L A r d st) {Lr Ar : ℝ} (hL : st.2.1 = ((Lr : ℝ) : EReal))
    (hA : st.2.2 = ((Ar : ℝ) : EReal)) (hL0 : Lr ≠ 0) :
    Ideal.div (A (ix2 r d)) (L (ix2 r (0 : Fin 1))) = ((Ar / Lr : ℝ) : EReal) := by
  rw [inv.2.2, inv.2.1, hL, hA, Ideal.div_coe hL0, ← EReal.coe_mul]
  congr 1
  ring

/-! ## The body at one grid point -/

/-- THE BODY AT ONE GRID POINT. If the staged block `x0` is batch `b` of a real array `xr`, then what the body
    leaves in the output's staging buffer at `(0, r, d)` is the softmax attention of row `1024 · i₁ + r` of batch `b`,
    column `d`. -/
theorem point_value (c : Dev nD) (i : grid0.Coords) (arg2 : Memref sig .tc .vmem S1x4096x128 .bf16) (harg2 : arg2.IsWhole) (arg3 : Memref sig .tc .vmem S1x1024x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x128 .f32) (harg6 : arg6.IsWhole)
    (x0 : Vec Ideal S1x4096x128 .bf16) (xr : Attn.SX.Idx → ℝ) (b : Fin 4)
    (hx0 : ∀ (j : Fin 4096) (k : Fin 128), x0 (ix3 (0 : Fin 1) j k) = ((xr (ix3 b j k) : ℝ) : EReal))
    (r : Fin 1024) (d : Fin 128) (n : Fin 4096) (hn : n.val = 1024 * (i 1).val + r.val) :
    out0_A_1 (F := Ideal) c i arg2 harg2 arg3 harg3 arg4 harg4 arg5 harg5 arg6 harg6 x0 (ix3 (0 : Fin 1) r d)
      = ((Attn.attn xr 0 b n d : ℝ) : EReal) := by
  -- the row's scores against chunk `c`'s keys, and column `d` of those keys' rows
  let sr : ℕ → Fin 512 → ℝ := fun c j => Attn.score xr b n (Attn.key c j)
  let vr : ℕ → Fin 512 → ℝ := fun c j => xr (ix3 b (Attn.key c j) d)
  let sE : ℕ → Fin 512 → EReal := fun c j => ((sr c j : ℝ) : EReal)
  let vE : ℕ → Fin 512 → EReal := fun c j => ((vr c j : ℝ) : EReal)
  -- the scalar recurrence after the eight chunks, its sums over all 4096 keys
  obtain ⟨Mx, hrun⟩ := Attn.run_succ sr vr 7
  have hLsum : (∑ c ∈ Finset.range (7 + 1), ∑ j, Real.exp (sr c j - Mx))
      = ∑ jj : Fin 4096, Real.exp (Attn.score xr b n jj - Mx) :=
    Attn.sum_keys (fun jj => Real.exp (Attn.score xr b n jj - Mx))
  have hAsum : (∑ c ∈ Finset.range (7 + 1), ∑ j, Real.exp (sr c j - Mx) * vr c j)
      = ∑ jj : Fin 4096, Real.exp (Attn.score xr b n jj - Mx) * xr (ix3 b jj d) :=
    Attn.sum_keys (fun jj => Real.exp (Attn.score xr b n jj - Mx) * xr (ix3 b jj d))
  rw [hLsum, hAsum] at hrun
  have hL0 : (∑ jj : Fin 4096, Real.exp (Attn.score xr b n jj - Mx)) ≠ 0 :=
    Attn.sum_exp_ne_zero (fun jj => Attn.score xr b n jj - Mx)
  -- the rows the body reads: the tile's query row, and each chunk's key rows
  have hq : ∀ k, k0_pay5 (F := Ideal) (View.ld (Val := Elt Ideal) x0 (Rect.unit (k0_off1 i) S1x1024x128.size (k0_off1_inb i))) (ix2 r k)
      = ((xr (ix3 b n k) : ℝ) : EReal) :=
    q_rows x0 xr b hx0 (i 1).val _ (k0_off1_eq i) _ r n hn
  -- what the body's one store to the output leaves
  unfold out0_A_1
  rw [View.read_writes_eq_canon _ _ _ (cover0_A_1 c i arg2 harg2 arg3 harg3 arg4 harg4 arg5 harg5 arg6 harg6 x0)]
  unfold kernelRun0_A
  dsimp only
  sl_unfold_words
  rw [View.canon_unit_zero zeros3]
  simp only [View.readAt_eq_ld, harg2.read_unread, readCov_cons_whole (S := S1024x1) _ zeros2,
    readCov_cons_whole (S := S1024x128) _ zeros2]
  rw [pay1_at]
  refine (finish_row (M := ?M8) (st := Attn.run sE vE 8)
    ?inv (congrArg (fun p => p.2.1) hrun) (congrArg (fun p => p.2.2) hrun) hL0).trans ?fin
  case fin =>
    rw [← Attn.attn_shift xr Mx 0 b n d]
    rfl
  case inv =>
    refine chunk7_row (st := Attn.run sE vE 7) (sr := sr 7) (vr := vr 7) ?_ (Attn.run_succ' sE vE 7)
      (fun j => score_row xr b _ _ r n 7 hq (fun j k => kv_rows x0 xr b hx0 7 (by norm_num) _ rfl _ j k) j)
      (fun j => kv_rows x0 xr b hx0 7 (by norm_num) _ rfl _ j d)
    refine chunk6_row (st := Attn.run sE vE 6) (sr := sr 6) (vr := vr 6) ?_ (Attn.run_succ' sE vE 6)
      (fun j => score_row xr b _ _ r n 6 hq (fun j k => kv_rows x0 xr b hx0 6 (by norm_num) _ rfl _ j k) j)
      (fun j => kv_rows x0 xr b hx0 6 (by norm_num) _ rfl _ j d)
    refine chunk5_row (st := Attn.run sE vE 5) (sr := sr 5) (vr := vr 5) ?_ (Attn.run_succ' sE vE 5)
      (fun j => score_row xr b _ _ r n 5 hq (fun j k => kv_rows x0 xr b hx0 5 (by norm_num) _ rfl _ j k) j)
      (fun j => kv_rows x0 xr b hx0 5 (by norm_num) _ rfl _ j d)
    refine chunk4_row (st := Attn.run sE vE 4) (sr := sr 4) (vr := vr 4) ?_ (Attn.run_succ' sE vE 4)
      (fun j => score_row xr b _ _ r n 4 hq (fun j k => kv_rows x0 xr b hx0 4 (by norm_num) _ rfl _ j k) j)
      (fun j => kv_rows x0 xr b hx0 4 (by norm_num) _ rfl _ j d)
    refine chunk3_row (st := Attn.run sE vE 3) (sr := sr 3) (vr := vr 3) ?_ (Attn.run_succ' sE vE 3)
      (fun j => score_row xr b _ _ r n 3 hq (fun j k => kv_rows x0 xr b hx0 3 (by norm_num) _ rfl _ j k) j)
      (fun j => kv_rows x0 xr b hx0 3 (by norm_num) _ rfl _ j d)
    refine chunk2_row (st := Attn.run sE vE 2) (sr := sr 2) (vr := vr 2) ?_ (Attn.run_succ' sE vE 2)
      (fun j => score_row xr b _ _ r n 2 hq (fun j k => kv_rows x0 xr b hx0 2 (by norm_num) _ rfl _ j k) j)
      (fun j => kv_rows x0 xr b hx0 2 (by norm_num) _ rfl _ j d)
    refine chunk1_row (st := Attn.run sE vE 1) (sr := sr 1) (vr := vr 1) ?_ (Attn.run_succ' sE vE 1)
      (fun j => score_row xr b _ _ r n 1 hq (fun j k => kv_rows x0 xr b hx0 1 (by norm_num) _ rfl _ j k) j)
      (fun j => kv_rows x0 xr b hx0 1 (by norm_num) _ rfl _ j d)
    refine chunk0_row (st := Attn.run sE vE 0) (sr := sr 0) (vr := vr 0) ?_ (Attn.run_succ' sE vE 0)
      (fun j => score_row xr b _ _ r n 0 hq (fun j k => kv_rows x0 xr b hx0 0 (by norm_num) _ rfl _ j k) j)
      (fun j => kv_rows x0 xr b hx0 0 (by norm_num) _ rfl _ j d)
    exact ⟨pay2_at r, pay3_at r, pay4_at r d⟩

end Cert.KernelIdeal.KPoint

end
-- ==== Proof.KernelArray.lean ====
/-
  From the body at every grid point to the whole output array.

  The region finds the argument array itself (the narrowing of its format before the region changes no ideal value).
  The grid is 4 × 4: point `(i₀, i₁)` stages batch `i₀` of that array as its input block and writes back the
  block of rows `1024 · i₁ … 1024 · i₁ + 1023` of batch `i₀`. At each point the body leaves, at `(0, r, d)`, the
  attention of row `1024 · i₁ + r` of batch `i₀`, column `d`; so each point writes back its block of the attention
  array `Attn.G`. The sixteen blocks cover the `[4, 4096, 128]` output: index `(b, n, d)` lies in the block of the
  point `(b, n / 1024)`. Hence the output array after the run is `Attn.G` of the argument.
-/
import proofs.«404290_j69492570849368_3_alg».proof.Proof.KernelPoint
import proofs.«404290_j69492570849368_3_alg».proof.Proof.Gen.KernelIdeal.Value
import Idealize.ShloMosaic.Lib.Pipeline.Value

noncomputable section

namespace Cert.KernelIdeal.KArray

open Cert.KernelIdeal Cert.KernelIdeal.Gen Idealize.ShloMosaic Idealize.ShloMosaic.TcCoe Idealize.SL.Sem Idealize.ShloMosaic.ValueIdx

/-! ## The array the region finds -/

/-- The one operation before the region narrows the argument's format, which changes no ideal value: the region
    finds the argument array itself. -/
theorem entry_array (m : (ℓ : Loc nD τ sig) → Buf (Elt Ideal) ℓ) (c : Dev nD) :
    (V m c main_v0 : S4x4096x128.Idx → EReal) = m ((c : Thread nD τ).loc main_arg0) := by
  have e : (V m c main_v0 : S4x4096x128.Idx → EReal)
      = (truncf .bf16 (m ((c : Thread nD τ).loc main_arg0) : FVec Ideal S4x4096x128 .f32) bitsLt_bf16_f32
          : FVec Ideal S4x4096x128 .bf16) := by
    dsimp only [Gen.V, Gen.hostOps0]; after_results
  rw [e]; rfl

/-! ## The index maps over the grid -/

/-- Over the sixteen grid points: the input's block index is (first coordinate, 0, 0), the output's is
    (first coordinate, second coordinate, 0). -/
theorem idx_facts : ∀ t : Fin cfg0.N,
    win0_0.index t (0 : Fin 3) = (grid0.coords t 0).val ∧ win0_0.index t (1 : Fin 3) = 0
    ∧ win0_0.index t (2 : Fin 3) = 0
    ∧ win0_1.index t (0 : Fin 3) = (grid0.coords t 0).val ∧ win0_1.index t (1 : Fin 3) = (grid0.coords t 1).val
    ∧ win0_1.index t (2 : Fin 3) = 0 :=
  (by decide +kernel : ∀ t : Fin grid0.N, _)

/-- Every pair (batch, quarter of the rows) is some grid point's output block index. -/
theorem idx_onto : ∀ (q0 : Fin 4) (q1 : Fin 4), ∃ t : Fin cfg0.N, win0_1.index t = ![q0.val, q1.val, 0] :=
  (by decide +kernel : ∀ (q0 : Fin 4) (q1 : Fin 4), ∃ t : Fin grid0.N, win0_1.index t = ![q0.val, q1.val, 0])

/-! ## One grid point -/

/-- The body's result at a block index `y` is the attention at the array index `z` whose batch is the staged
    batch, whose row is `1024 · i₁` plus `y`'s row, and whose column is `y`'s. -/
theorem out_at (c : Dev nD) (i : grid0.Coords) (arg2 : Memref sig .tc .vmem S1x4096x128 .bf16) (harg2 : arg2.IsWhole) (arg3 : Memref sig .tc .vmem S1x1024x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x128 .f32) (harg6 : arg6.IsWhole)
    (x0 : Vec Ideal S1x4096x128 .bf16) (xr : Attn.SX.Idx → ℝ) (b : Fin 4)
    (hx0 : ∀ (j : Fin 4096) (k : Fin 128), x0 (ix3 (0 : Fin 1) j k) = ((xr (ix3 b j k) : ℝ) : EReal))
    (y : S1x1024x128.Idx) (z : S4x4096x128.Idx) (h0 : (z 0).val = b.val)
    (h1 : (z 1).val = 1024 * (i 1).val + (y 1).val) (h2 : (z 2).val = (y 2).val) :
    out0_A_1 (F := Ideal) c i arg2 harg2 arg3 harg3 arg4 harg4 arg5 harg5 arg6 harg6 x0 y = Attn.G xr z := by
  have ey : y = (ix3 (0 : Fin 1) (y 1 : Fin 1024) (y 2 : Fin 128) : S1x1024x128.Idx) := by
    funext a
    match a with
    | ⟨0, _⟩ => exact Subsingleton.elim (α := Fin 1) _ _
    | ⟨1, _⟩ => rfl
    | ⟨2, _⟩ => rfl
  have hp := KPoint.point_value c i arg2 harg2 arg3 harg3 arg4 harg4 arg5 harg5 arg6 harg6 x0 xr b hx0 (y 1) (y 2) (z 1) h1
  have e0 : (z 0 : Fin 4) = b := Fin.ext h0
  have e2 : (z 2 : Fin 128) = y 2 := Fin.ext h2
  refine (congrArg (out0_A_1 (F := Ideal) c i arg2 harg2 arg3 harg3 arg4 harg4 arg5 harg5 arg6 harg6 x0) ey).trans (hp.trans ?_)
  show _ = ((Attn.attn xr 0 (z 0) (z 1) (z 2) : ℝ) : EReal)
  rw [e0, e2]

/-- The input's block at a grid point, at `(0, j, k)`, is the argument array at `(b, j, k)`, `b` the point's first
    coordinate: the input's blocks are the batches. -/
theorem in_block (m : (ℓ : Loc nD τ sig) → Buf (Elt Ideal) ℓ) (c : Dev nD) (t : Fin cfg0.N) (j : Fin 4096) (k : Fin 128)
    (b : Fin 4) (hb : b.val = (grid0.coords t 0).val) :
    (iblk m c 0 t : Vec Ideal S1x4096x128 .bf16) (ix3 (0 : Fin 1) j k)
      = (m ((c : Thread nD τ).loc main_arg0) : S4x4096x128.Idx → EReal) (ix3 b j k) := by
  obtain ⟨e0, e1, e2, -⟩ := idx_facts t
  unfold iblk
  rw [View.read_apply]
  show (V m c main_v0 : S4x4096x128.Idx → EReal) _ = _
  rw [entry_array]
  congr 1
  funext a
  apply Fin.ext
  match a with
  | ⟨0, _⟩ => show win0_0.index t (0 : Fin 3) * 1 + 1 * 0 = b.val; omega
  | ⟨1, _⟩ => show win0_0.index t (1 : Fin 3) * 4096 + 1 * j.val = j.val; omega
  | ⟨2, _⟩ => show win0_0.index t (2 : Fin 3) * 128 + 1 * k.val = k.val; omega

/-! ## What each point writes back, and the cover -/

/-- What a grid point writes back is its block of the attention array. -/
theorem flushed_eq (m : (ℓ : Loc nD τ sig) → Buf (Elt Ideal) ℓ) (xr : Dev nD → Attn.SX.Idx → ℝ)
    (hx : ∀ c : Dev nD, m ((c : Thread nD τ).loc main_arg0) = fun i => ((xr c i : ℝ) : EReal)) (c : Dev nD) (t : Fin cfg0.N) :
    (dats m 0 c).flushed 1 t = ((cfg0.win 1).blk t).view.read (Elt Ideal) (Attn.G (xr c)) := by
  rw [Value.flushed1_A]
  obtain ⟨-, -, -, e0, e1, e2⟩ := idx_facts t
  funext y
  rw [View.read_apply]
  have hy0 : (y 0).val < 1 := (y 0).isLt
  refine out_at c (grid0.coords t) _ _ _ _ _ _ _ _ _ _ (iblk m c 0 t) (xr c) (grid0.coords t 0) (fun j k => ?_) _ _ ?_ ?_ ?_
  · rw [in_block m c t j k _ rfl, hx c]
  · show win0_1.index t (0 : Fin 3) * 1 + 1 * (y 0).val = (grid0.coords t 0).val; omega
  · show win0_1.index t (1 : Fin 3) * 1024 + 1 * (y 1).val = 1024 * (grid0.coords t 1).val + (y 1).val; omega
  · show win0_1.index t (2 : Fin 3) * 128 + 1 * (y 2).val = (y 2).val; omega

/-- An index of the array is in a point's output block iff each coordinate is in the block's range on its axis. -/
theorem mem_blk (t : Fin cfg0.N) (i : S4x4096x128.Idx) :
    i ∈ ((cfg0.win 1).blk t).view.set ↔ ∀ a : Fin 3, win0_1.index t a * S1x1024x128.size a ≤ (i a).val
      ∧ (i a).val < win0_1.index t a * S1x1024x128.size a + S1x1024x128.size a := by
  show i ∈ ((View.whole main_v1).slice (win0_1.rect t)).set ↔ _
  rw [View.set_slice_whole, Rect.mem_set_unit]
  exact Iff.rfl

/-- Every index `(b, n, d)` of the output lies in the block of the point with block index `(b, n / 1024, 0)`. -/
theorem cover (i : S4x4096x128.Idx) :
    ∃ t : Fin cfg0.N, (cfg0.win 1).flush t = true ∧ i ∈ ((cfg0.win 1).blk t).view.set := by
  have hi0 : (i 0).val < 4 := (i 0).isLt
  have hi1 : (i 1).val < 4096 := (i 1).isLt
  have hi2 : (i 2).val < 128 := (i 2).isLt
  obtain ⟨t, ht⟩ := idx_onto ⟨(i 0).val, hi0⟩ ⟨(i 1).val / 1024, by omega⟩
  have q0 : win0_1.index t (0 : Fin 3) = (i 0).val := congrFun ht 0
  have q1 : win0_1.index t (1 : Fin 3) = (i 1).val / 1024 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1024 ≤ (i 1).val ∧ (i 1).val < win0_1.index t (1 : Fin 3) * 1024 + 1024; omega
  | ⟨2, _⟩ => show win0_1.index t (2 : Fin 3) * 128 ≤ (i 2).val ∧ (i 2).val < win0_1.index t (2 : Fin 3) * 128 + 128; omega

/-- The output array after the run is the attention array. -/
theorem final (m : (ℓ : Loc nD τ sig) → Buf (Elt Ideal) ℓ) (xr : Dev nD → Attn.SX.Idx → ℝ)
    (hx : ∀ c : Dev nD, m ((c : Thread nD τ).loc main_arg0) = fun i => ((xr c i : ℝ) : EReal)) (c : Dev nD) :
    (dats m 0 c).arrAt 1 cfg0.N = Attn.G (xr c) :=
  (dats m 0 c).arrAt_eq_of_cover 1 (Attn.G (xr c)) (fun t _ => flushed_eq m xr hx c t) cover

/-- THE KERNEL'S RUN AT THE IDEAL VALUES. If the argument array is (the coercion of) a real array `xr c` on every
    device, the program terminates with its result array the attention `Attn.G (xr c)` and its argument unchanged. -/
theorem kernel_run (m : (ℓ : Loc nD τ sig) → Buf (Elt Ideal) ℓ) (ρ : Dev nD → PrngReg) (xr : Dev nD → Attn.SX.Idx → ℝ)
    (hx : ∀ c : Dev nD, m ((c : Thread nD τ).loc main_arg0) = fun i => ((xr c i : ℝ) : EReal)) :
    θ_run defs (onTc (τ := τ) (main (F := Ideal))) ⟨m, fun _ => 0, ρ⟩ fun r => ∀ c : Dev nD,
      r.2.mem ((c : Thread nD τ).loc main_v1) = Attn.G (xr c)
      ∧ r.2.mem ((c : Thread nD τ).loc main_arg0) = m ((c : Thread nD τ).loc main_arg0) :=
  (θ_run defs _ _).mono (fun r h c => ⟨(h c).1.trans (final m xr hx c), (h c).2⟩) (Value.run_blocks m ρ)

end Cert.KernelIdeal.KArray

end
-- ==== Proof.RefValue.lean ====
/-
  The reference computes the attention of an array with itself in the textbook order: scores, the row's maximum,
  exponentials of the shifted scores, their sum, the normalised weights, and the weighted sum of the rows.
  At a real array every stage is (the coercion of) a real: a score is a finite sum of products, the row's maximum from
  `-∞` over 4096 real scores is some real `M`, the exponentials are positive reals, so their sum `L` is not zero and the
  division by it is the product with `1 / L`. The last stage is then `Σ_m e^(s m - M) · (1 / L) · x m = (Σ_m e^(s m - M) · x m) / L`,
  the softmax-weighted mean with the scores shifted by `M`; the mean does not see the shift, so it is the one with shift `0`.
-/
import proofs.«404290_j69492570849368_3_alg».proof.Proof.Gen.ReferenceIdeal.Read
import proofs.«404290_j69492570849368_3_alg».proof.Proof.OnlineSoftmax
import Idealize.ShloMosaic.Lib.IdealHost
import Idealize.ShloMosaic.PureOps.Reduce

noncomputable section

namespace Cert.ReferenceIdeal.RefValue

open Cert.ReferenceIdeal Cert.ReferenceIdeal.Gen Idealize.ShloMosaic Idealize.ShloMosaic.TcCoe Idealize.SL.Sem Idealize.ShloMosaic.ValueIdx
open scoped BigOperators

/-! ## Two constants and a division -/

/-- The pattern of `-∞` is the bottom of the extended reals. -/
theorem ofBits_neg_inf : Ideal.ofBits .f32 0xFF800000#32 = ⊥ := by simp [Ideal.ofBits, Ideal.ieee]

/-- Dividing by one changes nothing, at the infinities too. -/
theorem div_one_eq (x : EReal) : Ideal.div x 1 = x := by
  rw [← EReal.coe_one, Ideal.div_coe one_ne_zero, div_one, EReal.coe_one, mul_one]

/-! ## The indices the stages read at, by coordinates -/

theorem lidx2 (b : Fin 4) (n m : Fin 4096) (k : Fin 128) : Read.lidx_main_v2 (ix3 b n m) k = ix3 b n k := by
  funext a; match a with | ⟨0, _⟩ => rfl | ⟨1, _⟩ => rfl | ⟨2, _⟩ => rfl

theorem ridx2 (b : Fin 4) (n m : Fin 4096) (k : Fin 128) : Read.ridx_main_v2 (ix3 b n m) k = ix3 b m k := by
  funext a; match a with | ⟨0, _⟩ => rfl | ⟨1, _⟩ => rfl | ⟨2, _⟩ => rfl

/-- The row reduction's shape fact in the form that names the inserted index. -/
theorem red2 : S4x4096x4096.Reduces [2] S4x4096 := by decide

theorem lift2 (b : Fin 4) (n m : Fin 4096) : red2.lift (ix2 b n) m = ix3 b n m := by
  funext a; apply Fin.ext; match a with | ⟨0, _⟩ => rfl | ⟨1, _⟩ => rfl | ⟨2, _⟩ => rfl

theorem idx67 (b : Fin 4) (n m : Fin 4096) : Read.idx_main_v6 (Read.idx_main_v7 (ix3 b n m)) = ix2 b n := by
  funext a; match a with | ⟨0, _⟩ => rfl | ⟨1, _⟩ => rfl

theorem idx10 (b : Fin 4) (n k : Fin 4096) : Read.idx_main_v10 (ix2 b n) k = ix3 b n k := by
  funext a; match a with | ⟨0, _⟩ => rfl | ⟨1, _⟩ => rfl | ⟨2, _⟩ => rfl

theorem idx1112 (b : Fin 4) (n m : Fin 4096) : Read.idx_main_v11 (Read.idx_main_v12 (ix3 b n m)) = ix2 b n := by
  funext a; match a with | ⟨0, _⟩ => rfl | ⟨1, _⟩ => rfl

theorem lidx14 (b : Fin 4) (n : Fin 4096) (d : Fin 128) (k : Fin 4096) : Read.lidx_main_v14 (ix3 b n d) k = ix3 b n k := by
  funext a; match a with | ⟨0, _⟩ => rfl | ⟨1, _⟩ => rfl | ⟨2, _⟩ => rfl

theorem ridx14 (b : Fin 4) (n : Fin 4096) (d : Fin 128) (k : Fin 4096) : Read.ridx_main_v14 (ix3 b n d) k = ix3 b k d := by
  funext a; match a with | ⟨0, _⟩ => rfl | ⟨1, _⟩ => rfl | ⟨2, _⟩ => rfl

/-! ## The stages at a real array -/

/-- A real array inside the extended reals. -/
abbrev cx (xr : Attn.SX.Idx → ℝ) : (⟨S4x4096x128, .f32⟩ : BufTy).Contents (Elt Ideal) := fun i => ((xr i : ℝ) : EReal)

variable (xr : Attn.SX.Idx → ℝ)

/-- `x / 1.0` is `x`. -/
theorem v1_apply (i : S4x4096x128.Idx) : Read.val_main_v1 (F := Ideal) (cx xr) i = ((xr i : ℝ) : EReal) := by
  rw [Read.val_main_v1_apply, Read.val_main_v0_apply, Read.val_main_cst_apply, Ideal.hostDivf_def, Ideal.ofBits_def,
    Ideal.ofBits_one_f32, div_one_eq]

/-- The scores: inner products of rows. -/
theorem v2_apply (b : Fin 4) (n m : Fin 4096) :
    Read.val_main_v2 (F := Ideal) (cx xr) (ix3 b n m) = ((Attn.score xr b n m : ℝ) : EReal) := by
  rw [Read.val_main_v2_apply]
  unfold Attn.score
  rw [Attn.coe_sum]
  refine Finset.sum_congr rfl fun k _ => ?_
  rw [lidx2, ridx2, v1_apply, EReal.coe_mul]

/-- The row's maximum from `-∞` is some real. -/
theorem v3_apply (b : Fin 4) (n : Fin 4096) :
    ∃ M : ℝ, Read.val_main_v3 (F := Ideal) (cx xr) (ix2 b n) = (M : EReal) := by
  obtain ⟨M, hM⟩ := Attn.fold_max_coe (Finset.univ : Finset (Fin 4096)) Finset.univ_nonempty (fun m => Attn.score xr b n m)
  refine ⟨M, ?_⟩
  have hf : (Read.val_main_v2 (F := Ideal) (cx xr) ∘ red2.lift (ix2 b n))
      = fun m : Fin 4096 => ((Attn.score xr b n m : ℝ) : EReal) := by
    funext m
    exact (congrArg (Read.val_main_v2 (F := Ideal) (cx xr)) (lift2 b n m)).trans (v2_apply xr b n m)
  unfold Read.val_main_v3
  rw [Host.reduce_eq_fold_single FloatOps.maximumf _ _ reducesTo_S4x4096x4096_S4x4096_d2 red2 h_S_ (ix2 b n), hf,
    Read.val_main_cst_0_apply, Ideal.ofBits_def, ofBits_neg_inf]
  exact hM

/-- So is its maximum with `-∞`. -/
theorem v5_apply (b : Fin 4) (n : Fin 4096) :
    ∃ M : ℝ, Read.val_main_v5 (F := Ideal) (cx xr) (ix2 b n) = (M : EReal) := by
  obtain ⟨M, hM⟩ := v3_apply xr b n
  refine ⟨M, ?_⟩
  rw [Read.val_main_v5_apply, hM, Read.val_main_v4_apply, Read.val_main_cst_1_apply, Ideal.maximumf_def, Ideal.ofBits_def,
    ofBits_neg_inf, max_bot_left]

/-- The exponential of a score shifted by the row's maximum. -/
theorem v9_apply (b : Fin 4) (n m : Fin 4096) (M : ℝ)
    (hM : Read.val_main_v5 (F := Ideal) (cx xr) (ix2 b n) = (M : EReal)) :
    Read.val_main_v9 (F := Ideal) (cx xr) (ix3 b n m) = ((Real.exp (Attn.score xr b n m - M) : ℝ) : EReal) := by
  rw [Read.val_main_v9_apply, Read.val_main_v8_apply, Read.val_main_v7_apply, Read.val_main_v6_apply, idx67, hM, v2_apply,
    Ideal.hostUnary_exp_def, Ideal.subf_def, ← EReal.coe_sub, Ideal.exp_coe]

/-- The row's sum of them. -/
theorem v10_apply (b : Fin 4) (n : Fin 4096) (M : ℝ)
    (hM : Read.val_main_v5 (F := Ideal) (cx xr) (ix2 b n) = (M : EReal)) :
    Read.val_main_v10 (F := Ideal) (cx xr) (ix2 b n)
      = ((∑ m : Fin 4096, Real.exp (Attn.score xr b n m - M) : ℝ) : EReal) := by
  rw [Read.val_main_v10_apply, Read.val_main_cst_2_apply, Ideal.ofBits_def, Ideal.ofBits_zero_f32, zero_add, Attn.coe_sum]
  exact Finset.sum_congr rfl fun k _ => by rw [idx10, v9_apply xr b n k M hM]

/-- The normalised weight: the sum is not zero, so the quotient is the product with its reciprocal. -/
theorem v13_apply (b : Fin 4) (n m : Fin 4096) (M : ℝ)
    (hM : Read.val_main_v5 (F := Ideal) (cx xr) (ix2 b n) = (M : EReal)) :
    Read.val_main_v13 (F := Ideal) (cx xr) (ix3 b n m)
      = ((Real.exp (Attn.score xr b n m - M) * (1 / ∑ j : Fin 4096, Real.exp (Attn.score xr b n j - M)) : ℝ) : EReal) := by
  rw [Read.val_main_v13_apply, Read.val_main_v12_apply, Read.val_main_v11_apply, idx1112, v10_apply xr b n M hM,
    v9_apply xr b n m M hM, Ideal.hostDivf_def,
    Ideal.div_coe (Attn.sum_exp_ne_zero (fun j : Fin 4096 => Attn.score xr b n j - M)), ← EReal.coe_mul]

/-- The reference's last stage, of (the coercion of) a real array, is the attention `Attn.G` of that array. -/
theorem ref_eq (xr : Attn.SX.Idx → ℝ) :
    Cert.ReferenceIdeal.Read.val_main_v14 (F := Ideal) (fun i => ((xr i : ℝ) : EReal)) = Attn.G xr := by
  funext i
  obtain ⟨b, n, d, rfl⟩ : ∃ b n d, i = ix3 b n d := ⟨i 0, i 1, i 2, eq_ix3 i⟩
  obtain ⟨M, hM⟩ := v5_apply xr b n
  show Read.val_main_v14 (F := Ideal) (cx xr) (ix3 b n d) = ((Attn.attn xr 0 b n d : ℝ) : EReal)
  rw [Read.val_main_v14_apply, Attn.attn_shift xr 0 M]
  unfold Attn.attn
  rw [← Attn.sum_div_mul, Attn.coe_sum]
  refine Finset.sum_congr rfl fun k _ => ?_
  rw [lidx14, ridx14, v13_apply xr b n k M hM, ← EReal.coe_mul]

end Cert.ReferenceIdeal.RefValue

end
-- ==== Proof.Finite.lean ====
/-
  From the precondition to real entries.

  The precondition compares `|x|` with `+∞` entry by entry and reduces the comparisons by `and`. If the reduced
  word is 1, every comparison is 1, so every entry has `max x (-x) < +∞`; an extended real with that property is
  neither infinity, hence the coercion of its own real part.
-/
import proofs.«404290_j69492570849368_3_alg».proof.Pre_finite_inputs
import proofs.«404290_j69492570849368_3_alg».proof.Proof.Gen.Pre_finite_inputs
import proofs.«404290_j69492570849368_3_alg».proof.Proof.OnlineSoftmax
import Idealize.ShloMosaic.Lib.ReduceAll

noncomputable section

namespace Cert.Pre_finite_inputs.Finite

open Cert.Pre_finite_inputs Idealize.ShloMosaic Idealize.ShloMosaic.ValueIdx

/-- The result of a reduction over every axis has a single index. -/
instance : Subsingleton S_.Idx := ⟨fun a b => funext fun d => d.elim0⟩

/-- The pattern `0x7F800000` denotes `+∞`. -/
theorem inf_bits : Ideal.ofBits .f32 0x7F800000#32 = (⊤ : EReal) := by simp [Ideal.ofBits, Ideal.ieee]

/-- An extended real whose absolute value `max x (-x)` lies below `+∞` is a real. -/
theorem coe_of_abs_lt_top (x : EReal) (hx : max x (-x) < ⊤) : x = ((x.toReal : ℝ) : EReal) := by
  induction x using EReal.rec with
  | bot => simp at hx
  | coe r => rfl
  | top => simp at hx

/-- The comparison `a < b` as a one-bit word is 1 only if `a < b`. -/
theorem lt_of_cmp_olt (a b : EReal) (hc : Ideal.cmp .olt a b = 1#1) : a < b := by
  by_contra hn
  have h0 : Ideal.cmp .olt a b = 0#1 := by simp [Ideal.cmp, hn]
  rw [h0] at hc
  exact absurd hc (by decide)

/-- An array of which the precondition `finite_inputs` holds is the coercion of an array of reals. -/
theorem real_of_pre (x : FVec Ideal S4x4096x128 .f32) (h : Cert.Pre_finite_inputs.fn (F := Ideal) x = fun _ => 1#1) :
    ∃ xr : Attn.SX.Idx → ℝ, x = fun i => ((xr i : ℝ) : EReal) := by
  -- the predicate's one output word is 1
  have h0 := congrFun h ValueIdx.ix0
  dsimp only [Cert.Pre_finite_inputs.fn] at h0
  refine ⟨fun i => (x i).toReal, funext fun i => ?_⟩
  -- so every entry of the compared array is 1: |x i| < +∞
  have hi := Host.reduce_andi_all _ _ _ _ _ h0 i
  change Ideal.cmp .olt (max (x i) (-(x i))) (Ideal.ofBits .f32 0x7F800000#32) = 1#1 at hi
  rw [inf_bits] at hi
  exact coe_of_abs_lt_top _ (lt_of_cmp_olt _ _ hi)

end Cert.Pre_finite_inputs.Finite

end
-- ==== Proof.lean ====
/-
  Dense self-attention of an array with itself, `softmax(x xᵀ) x` over f32[4, 4096, 128], computed two ways.

  The kernel works on tiles of 1024 query rows and never forms the 4096 × 4096 matrix of scores: it walks the keys in
  eight chunks of 512, keeping per row a running maximum `m`, a running denominator `l` and a running numerator `a`,
  rescaling what it has by `e^(m - m')` whenever the maximum moves, and divides at the end. The reference forms all
  the scores, subtracts each row's maximum, exponentiates, normalises and multiplies by `x`.

  On the extended reals with finite inputs every score is a real number. After the first chunk (`e^(-∞) = 0` wipes
  the empty start) the kernel's state is `(M, Σ e^(s - M), Σ e^(s - M) · x)` for a real `M`, the sums over the keys
  seen so far, because `e^(M - M') · e^(s - M) = e^(s - M')`; at the end the quotient is the softmax-weighted mean of
  the rows, and that mean does not depend on the shift `M` (OnlineSoftmax.lean). The reference's result is the same
  mean, with the row maximum as its shift and each weight normalised before the sum instead of after
  (RefValue.lean). Finiteness is used: the rescaling law and the division are laws of the reals
  (Finite.lean reads the precondition). The kernel's side is read chunk by chunk at a row (KernelSteps.lean,
  KernelStepsAt.lean, KernelPoint.lean) and then block by block over the grid (KernelArray.lean).
  The format changes to bf16 and back are the identity on the extended reals, and the scale `1.0` the kernel
  multiplies by is the `1.0` the reference divides by.
-/
import proofs.«404290_j69492570849368_3_alg».proof.Defs
import proofs.«404290_j69492570849368_3_alg».proof.Proof.Gen.Kernel
import proofs.«404290_j69492570849368_3_alg».proof.Proof.Gen.Kernel.Skeleton
import proofs.«404290_j69492570849368_3_alg».proof.Proof.Gen.Kernel.Launch
import proofs.«404290_j69492570849368_3_alg».proof.Proof.Gen.Kernel.Points
import proofs.«404290_j69492570849368_3_alg».proof.Proof.Gen.Kernel.Frame
import proofs.«404290_j69492570849368_3_alg».proof.Proof.Gen.KernelIdeal
import proofs.«404290_j69492570849368_3_alg».proof.Proof.Gen.KernelIdeal.Skeleton
import proofs.«404290_j69492570849368_3_alg».proof.Proof.Gen.KernelIdeal.Launch
import proofs.«404290_j69492570849368_3_alg».proof.Proof.Gen.KernelIdeal.Points
import proofs.«404290_j69492570849368_3_alg».proof.Proof.Gen.KernelIdeal.Frame
import proofs.«404290_j69492570849368_3_alg».proof.Proof.Gen.ReferenceIdeal
import proofs.«404290_j69492570849368_3_alg».proof.Proof.Gen.Pre_finite_inputs
import proofs.«404290_j69492570849368_3_alg».proof.Proof.Gen.KernelIdeal.Value
import proofs.«404290_j69492570849368_3_alg».proof.Proof.Gen.ReferenceIdeal.Run
import proofs.«404290_j69492570849368_3_alg».proof.Proof.Gen.ReferenceIdeal.Read
import proofs.«404290_j69492570849368_3_alg».proof.Proof.KernelArray
import proofs.«404290_j69492570849368_3_alg».proof.Proof.RefValue
import proofs.«404290_j69492570849368_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its argument alone: the generated frame. -/
theorem frame_k : Cert.frame_Kernel (hKernel := Cert.Kernel.Gen.facts) (hPre_finite_inputs := Cert.Pre_finite_inputs.Gen.facts) :=
  fun m ρ _ => Cert.Kernel.Gen.frame m ρ

/-- So does the kernel read at the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From finite inputs that agree, both programs end with the attention `Attn.G` of the real array the inputs are:
    the kernel by its run over the grid, the reference by its last stage read at the reals. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hreal : ∀ c : Dev Cert.KernelIdeal.nD, ∃ xr : Attn.SX.Idx → ℝ,
      m ((c.tc : Thread Cert.KernelIdeal.nD Cert.KernelIdeal.τ).loc Cert.KernelIdeal.main_arg0) = fun i => ((xr i : ℝ) : EReal) :=
    fun c => Cert.Pre_finite_inputs.Finite.real_of_pre _ (hpre c)
  choose xr hxr using hreal
  refine ⟨fun c => Attn.G (xr c), Cert.KernelIdeal.KArray.kernel_run m ρ xr hxr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, hagree c, hxr c]
  exact Cert.ReferenceIdeal.RefValue.ref_eq (xr c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
